-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S292864x256 : Shape := ⟨2, ![292864, 256]⟩
abbrev S281600 : Shape := ⟨1, ![281600]⟩
abbrev S10240 : Shape := ⟨1, ![10240]⟩
abbrev S256x256 : Shape := ⟨2, ![256, 256]⟩
abbrev S256 : Shape := ⟨1, ![256]⟩
abbrev S256x47 : Shape := ⟨2, ![256, 47]⟩
abbrev S47 : Shape := ⟨1, ![47]⟩
abbrev S_ : Shape := ⟨0, ![]⟩

class Facts : Prop where
  bcast_S_S292864x256 : S_.BroadcastsInDim S292864x256 (![] : Fin 0 → Fin S292864x256.rank)
  reducesTo_S292864x256_S_d0_1 : S292864x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_
  bcast_S_S281600 : S_.BroadcastsInDim S281600 (![] : Fin 0 → Fin S281600.rank)
  reducesTo_S281600_S_d0 : S281600.ReducesTo [0] S_
  bcast_S_S10240 : S_.BroadcastsInDim S10240 (![] : Fin 0 → Fin S10240.rank)
  reducesTo_S10240_S_d0 : S10240.ReducesTo [0] S_

variable [Facts]

def fn_part2 {F : FTy → Type} [FloatOps F] (main_arg1 : IVec S281600 32) (main_arg3 : IVec S10240 32) (main_v33 : IVec S_ 1) : IVec S_ 1 :=
  let main_c_12 : IVec S_ 32 := constantI S_ 32 4294674432#32
  let main_v34 : IVec S281600 32 := broadcastInDim S281600 ![] bcast_S_S281600 main_c_12
  let main_v35 : IVec S281600 1 := cmpi .sge main_arg1 main_v34
  let main_c_13 : IVec S_ 1 := constantI S_ 1 1#1
  let main_v36 : IVec S_ 1 := (fun x v => Host.reduce IntOp.andi x v reducesTo_S281600_S_d0 h_S_) main_v35 main_c_13
  let main_v37 : IVec S_ 1 := andi main_v33 main_v36
  let main_c_14 : IVec S_ 32 := constantI S_ 32 292864#32
  let main_v38 : IVec S281600 32 := broadcastInDim S281600 ![] bcast_S_S281600 main_c_14
  let main_v39 : IVec S281600 1 := cmpi .slt main_arg1 main_v38
  let main_c_15 : IVec S_ 1 := constantI S_ 1 1#1
  let main_v40 : IVec S_ 1 := (fun x v => Host.reduce IntOp.andi x v reducesTo_S281600_S_d0 h_S_) main_v39 main_c_15
  let main_v41 : IVec S_ 1 := andi main_v37 main_v40
  let main_c_16 : IVec S_ 32 := constantI S_ 32 4294956032#32
  let main_v42 : IVec S10240 32 := broadcastInDim S10240 ![] bcast_S_S10240 main_c_16
  let main_v43 : IVec S10240 1 := cmpi .sge main_arg3 main_v42
  let main_c_17 : IVec S_ 1 := constantI S_ 1 1#1
  let main_v44 : IVec S_ 1 := (fun x v => Host.reduce IntOp.andi x v reducesTo_S10240_S_d0 h_S_) main_v43 main_c_17
  let main_v45 : IVec S_ 1 := andi main_v41 main_v44
  let main_c_18 : IVec S_ 32 := constantI S_ 32 11264#32
  let main_v46 : IVec S10240 32 := broadcastInDim S10240 ![] bcast_S_S10240 main_c_18
  let main_v47 : IVec S10240 1 := cmpi .slt main_arg3 main_v46
  let main_c_19 : IVec S_ 1 := constantI S_ 1 1#1
  let main_v48 : IVec S_ 1 := (fun x v => Host.reduce IntOp.andi x v reducesTo_S10240_S_d0 h_S_) main_v47 main_c_19
  let main_v49 : IVec S_ 1 := andi main_v45 main_v48
  main_v49

def fn_part1 {F : FTy → Type} [FloatOps F] (main_arg1 : IVec S281600 32) (main_arg3 : IVec S10240 32) (main_arg8 : FVec F S256x47 .f32) (main_arg9 : FVec F S256x47 .f32) (main_arg10 : FVec F S47 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x47 .f32 := Host.absf main_arg8
  let main_cst_6 : FVec F S_ .f32 := constant S_ .f32 0x7F800000#32
  let main_v20 : FVec F S256x47 .f32 := broadcastInDim S256x47 ![] bcast_S_S256x47 main_cst_6
  let main_v21 : IVec S256x47 1 := cmpf .olt main_v19 main_v20
  let main_c_7 : IVec S_ 1 := constantI S_ 1 1#1
  let main_v22 : IVec S_ 1 := (fun x v => Host.reduce IntOp.andi x v reducesTo_S256x47_S_d0_1 h_S_) main_v21 main_c_7
  let main_v23 : IVec S_ 1 := andi main_v18 main_v22
  let main_v24 : FVec F S256x47 .f32 := Host.absf main_arg9
  let main_cst_8 : FVec F S_ .f32 := constant S_ .f32 0x7F800000#32
  let main_v25 : FVec F S256x47 .f32 := broadcastInDim S256x47 ![] bcast_S_S256x47 main_cst_8
  let main_v26 : IVec S256x47 1 := cmpf .olt main_v24 main_v25
  let main_c_9 : IVec S_ 1 := constantI S_ 1 1#1
  let main_v27 : IVec S_ 1 := (fun x v => Host.reduce IntOp.andi x v reducesTo_S256x47_S_d0_1 h_S_) main_v26 main_c_9
  let main_v28 : IVec S_ 1 := andi main_v23 main_v27
  let main_v29 : FVec F S47 .f32 := Host.absf main_arg10
  let main_cst_10 : FVec F S_ .f32 := constant S_ .f32 0x7F800000#32
  let main_v30 : FVec F S47 .f32 := broadcastInDim S47 ![] bcast_S_S47 main_cst_10
  let main_v31 : IVec S47 1 := cmpf .olt main_v29 main_v30
  let main_c_11 : IVec S_ 1 := constantI S_ 1 1#1
  let main_v32 : IVec S_ 1 := (fun x v => Host.reduce IntOp.andi x v reducesTo_S47_S_d0 h_S_) main_v31 main_c_11
  let main_v33 : IVec S_ 1 := andi main_v28 main_v32
  fn_part2 (F := F) main_arg1 main_arg3 main_v33

def fn {F : FTy → Type} [FloatOps F] (main_arg0 : FVec F S292864x256 .f32) (main_arg1 : IVec S281600 32) (main_arg2 : IVec S281600 32) (main_arg3 : IVec S10240 32) (main_arg4 : IVec S10240 32) (main_arg5 : FVec F S256x256 .f32) (main_arg6 : FVec F S256x256 .f32) (main_arg7 : FVec F S256 .f32) (main_arg8 : FVec F S256x47 .f32) (main_arg9 : FVec F S256x47 .f32) (main_arg10 : FVec F S47 .f32) : IVec S_ 1 :=
  let main_v0 : FVec F S292864x256 .f32 := Host.absf main_arg0
  let main_cst : FVec F S_ .f32 := constant S_ .f32 0x7F800000#32
  let main_v1 : FVec F S292864x256 .f32 := broadcastInDim S292864x256 ![] bcast_S_S292864x256 main_cst
  let main_v2 : IVec S292864x256 1 := cmpf .olt main_v0 main_v1
  let main_c : IVec S_ 1 := constantI S_ 1 1#1
  let main_v3 : IVec S_ 1 := (fun x v => Host.reduce IntOp.andi x v reducesTo_S292864x256_S_d0_1 h_S_) main_v2 main_c
  let main_v4 : FVec F S256x256 .f32 := Host.absf main_arg5
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg6
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg3 main_arg8 main_arg9 main_arg10 main_v13 main_v16
-- ==== Kernel.lean ====
abbrev S292864x256 : Shape := ⟨2, ![292864, 256]⟩
abbrev S281600 : Shape := ⟨1, ![281600]⟩
abbrev S10240 : Shape := ⟨1, ![10240]⟩
abbrev S256x256 : Shape := ⟨2, ![256, 256]⟩
abbrev S256 : Shape := ⟨1, ![256]⟩
abbrev S256x47 : Shape := ⟨2, ![256, 47]⟩
abbrev S47 : Shape := ⟨1, ![47]⟩
abbrev S_ : Shape := ⟨0, ![]⟩
abbrev S281600x1 : Shape := ⟨2, ![281600, 1]⟩
abbrev S1 : Shape := ⟨1, ![1]⟩
abbrev S1x1 : Shape := ⟨2, ![1, 1]⟩
abbrev S281600x256 : Shape := ⟨2, ![281600, 256]⟩
abbrev S11264x256 : Shape := ⟨2, ![11264, 256]⟩
abbrev S11264 : Shape := ⟨1, ![11264]⟩
abbrev S11264x1 : Shape := ⟨2, ![11264, 1]⟩
abbrev S1x256 : Shape := ⟨2, ![1, 256]⟩
abbrev S1024x256 : Shape := ⟨2, ![1024, 256]⟩
abbrev S10240x1 : Shape := ⟨2, ![10240, 1]⟩
abbrev S10240x256 : Shape := ⟨2, ![10240, 256]⟩
abbrev S1024 : Shape := ⟨1, ![1024]⟩
abbrev S1024x1 : Shape := ⟨2, ![1024, 1]⟩
abbrev S1x47 : Shape := ⟨2, ![1, 47]⟩
abbrev S1024x47 : Shape := ⟨2, ![1024, 47]⟩

abbrev nBuf : Space → Nat
  | .hbm => 95
  | .vmem => 15
  | .smem => 0
  | _ => 0

abbrev bufTy : (tb : Table) → Fin (tcTables nBuf tb) → BufTy
  | .hbm, ⟨0, _⟩ => ⟨S292864x256, .f32⟩
  | .hbm, ⟨1, _⟩ => ⟨S281600, .i32⟩
  | .hbm, ⟨2, _⟩ => ⟨S281600, .i32⟩
  | .hbm, ⟨3, _⟩ => ⟨S10240, .i32⟩
  | .hbm, ⟨4, _⟩ => ⟨S10240, .i32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x47, .f32⟩
  | .hbm, ⟨9, _⟩ => ⟨S256x47, .f32⟩
  | .hbm, ⟨10, _⟩ => ⟨S47, .f32⟩
  | .hbm, ⟨11, _⟩ => ⟨S_, .i32⟩
  | .hbm, ⟨12, _⟩ => ⟨S281600, .i32⟩
  | .hbm, ⟨13, _⟩ => ⟨S281600, .i1⟩
  | .hbm, ⟨14, _⟩ => ⟨S_, .i32⟩
  | .hbm, ⟨15, _⟩ => ⟨S281600, .i32⟩
  | .hbm, ⟨16, _⟩ => ⟨S281600, .i32⟩
  | .hbm, ⟨17, _⟩ => ⟨S281600, .i32⟩
  | .hbm, ⟨18, _⟩ => ⟨S281600x1, .i32⟩
  | .hbm, ⟨19, _⟩ => ⟨S1, .i32⟩
  | .hbm, ⟨20, _⟩ => ⟨S_, .i32⟩
  | .hbm, ⟨21, _⟩ => ⟨S281600x1, .i32⟩
  | .hbm, ⟨22, _⟩ => ⟨S281600x1, .i1⟩
  | .hbm, ⟨23, _⟩ => ⟨S1x1, .i32⟩
  | .hbm, ⟨24, _⟩ => ⟨S281600x1, .i32⟩
  | .hbm, ⟨25, _⟩ => ⟨S281600x1, .i1⟩
  | .hbm, ⟨26, _⟩ => ⟨S281600x1, .i1⟩
  | .hbm, ⟨27, _⟩ => ⟨S_, .i1⟩
  | .hbm, ⟨28, _⟩ => ⟨S281600, .i1⟩
  | .hbm, ⟨29, _⟩ => ⟨S281600x256, .f32⟩
  | .hbm, ⟨30, _⟩ => ⟨S281600x256, .i1⟩
  | .hbm, ⟨31, _⟩ => ⟨S_, .f32⟩
  | .hbm, ⟨32, _⟩ => ⟨S281600x256, .f32⟩
  | .hbm, ⟨33, _⟩ => ⟨S281600x256, .f32⟩
  | .hbm, ⟨34, _⟩ => ⟨S_, .f32⟩
  | .hbm, ⟨35, _⟩ => ⟨S11264x256, .f32⟩
  | .hbm, ⟨36, _⟩ => ⟨S281600x1, .i32⟩
  | .hbm, ⟨37, _⟩ => ⟨S11264x256, .f32⟩
  | .hbm, ⟨38, _⟩ => ⟨S_, .f32⟩
  | .hbm, ⟨39, _⟩ => ⟨S281600, .f32⟩
  | .hbm, ⟨40, _⟩ => ⟨S_, .f32⟩
  | .hbm, ⟨41, _⟩ => ⟨S11264, .f32⟩
  | .hbm, ⟨42, _⟩ => ⟨S281600x1, .i32⟩
  | .hbm, ⟨43, _⟩ => ⟨S11264, .f32⟩
  | .hbm, ⟨44, _⟩ => ⟨S_, .f32⟩
  | .hbm, ⟨45, _⟩ => ⟨S11264, .f32⟩
  | .hbm, ⟨46, _⟩ => ⟨S11264, .f32⟩
  | .hbm, ⟨47, _⟩ => ⟨S11264x1, .f32⟩
  | .hbm, ⟨48, _⟩ => ⟨S11264x256, .f32⟩
  | .hbm, ⟨49, _⟩ => ⟨S11264x256, .f32⟩
  | .hbm, ⟨50, _⟩ => ⟨S11264x256, .f32⟩
  | .hbm, ⟨51, _⟩ => ⟨S1x256, .f32⟩
  | .hbm, ⟨52, _⟩ => ⟨S11264x256, .f32⟩
  | .hbm, ⟨53, _⟩ => ⟨S_, .i32⟩
  | .hbm, ⟨54, _⟩ => ⟨S10240, .i32⟩
  | .hbm, ⟨55, _⟩ => ⟨S10240, .i1⟩
  | .hbm, ⟨56, _⟩ => ⟨S_, .i32⟩
  | .hbm, ⟨57, _⟩ => ⟨S10240, .i32⟩
  | .hbm, ⟨58, _⟩ => ⟨S10240, .i32⟩
  | .hbm, ⟨59, _⟩ => ⟨S10240, .i32⟩
  | .hbm, ⟨60, _⟩ => ⟨S10240x1, .i32⟩
  | .hbm, ⟨61, _⟩ => ⟨S1, .i32⟩
  | .hbm, ⟨62, _⟩ => ⟨S_, .i32⟩
  | .hbm, ⟨63, _⟩ => ⟨S10240x1, .i32⟩
  | .hbm, ⟨64, _⟩ => ⟨S10240x1, .i1⟩
  | .hbm, ⟨65, _⟩ => ⟨S1x1, .i32⟩
  | .hbm, ⟨66, _⟩ => ⟨S10240x1, .i32⟩
  | .hbm, ⟨67, _⟩ => ⟨S10240x1, .i1⟩
  | .hbm, ⟨68, _⟩ => ⟨S10240x1, .i1⟩
  | .hbm, ⟨69, _⟩ => ⟨S_, .i1⟩
  | .hbm, ⟨70, _⟩ => ⟨S10240, .i1⟩
  | .hbm, ⟨71, _⟩ => ⟨S10240x256, .f32⟩
  | .hbm, ⟨72, _⟩ => ⟨S10240x256, .i1⟩
  | .hbm, ⟨73, _⟩ => ⟨S_, .f32⟩
  | .hbm, ⟨74, _⟩ => ⟨S10240x256, .f32⟩
  | .hbm, ⟨75, _⟩ => ⟨S10240x256, .f32⟩
  | .hbm, ⟨76, _⟩ => ⟨S_, .f32⟩
  | .hbm, ⟨77, _⟩ => ⟨S1024x256, .f32⟩
  | .hbm, ⟨78, _⟩ => ⟨S10240x1, .i32⟩
  | .hbm, ⟨79, _⟩ => ⟨S1024x256, .f32⟩
  | .hbm, ⟨80, _⟩ => ⟨S_, .f32⟩
  | .hbm, ⟨81, _⟩ => ⟨S10240, .f32⟩
  | .hbm, ⟨82, _⟩ => ⟨S_, .f32⟩
  | .hbm, ⟨83, _⟩ => ⟨S1024, .f32⟩
  | .hbm, ⟨84, _⟩ => ⟨S10240x1, .i32⟩
  | .hbm, ⟨85, _⟩ => ⟨S1024, .f32⟩
  | .hbm, ⟨86, _⟩ => ⟨S_, .f32⟩
  | .hbm, ⟨87, _⟩ => ⟨S1024, .f32⟩
  | .hbm, ⟨88, _⟩ => ⟨S1024, .f32⟩
  | .hbm, ⟨89, _⟩ => ⟨S1024x1, .f32⟩
  | .hbm, ⟨90, _⟩ => ⟨S1024x256, .f32⟩
  | .hbm, ⟨91, _⟩ => ⟨S1024x256, .f32⟩
  | .hbm, ⟨92, _⟩ => ⟨S1024x256, .f32⟩
  | .hbm, ⟨93, _⟩ => ⟨S1x47, .f32⟩
  | .hbm, ⟨94, _⟩ => ⟨S1024x47, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S256x47, .f32⟩
  | .local _ .vmem, ⟨12, _⟩ => ⟨S256x47, .f32⟩
  | .local _ .vmem, ⟨13, _⟩ => ⟨S1x47, .f32⟩
  | .local _ .vmem, ⟨14, _⟩ => ⟨S1024x47, .f32⟩
  | _, _ => ⟨S292864x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_cst : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_cst_0 : Ref sig .tc := ⟨.hbm, 38, rfl⟩
abbrev main_v4 : Ref sig .tc := ⟨.hbm, 39, rfl⟩
abbrev main_cst_1 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_cst_2 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v16 : Ref sig .tc := ⟨.hbm, 75, rfl⟩
abbrev main_cst_3 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_cst_4 : Ref sig .tc := ⟨.hbm, 80, rfl⟩
abbrev main_v20 : Ref sig .tc := ⟨.hbm, 81, rfl⟩
abbrev main_cst_5 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_cst_6 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1024x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1024x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S256x47 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x47 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x47 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x47 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

class Facts₀ : Prop where
  bcast_S_S281600 : S_.BroadcastsInDim S281600 (![] : Fin 0 → Fin S281600.rank)
  bcast_S281600_S281600x1_0 : S281600.BroadcastsInDim S281600x1 (![0] : Fin 1 → Fin S281600x1.rank)
  bcast_S_S281600x1 : S_.BroadcastsInDim S281600x1 (![] : Fin 0 → Fin S281600x1.rank)
  bcast_S1_S1x1_1 : S1.BroadcastsInDim S1x1 (![1] : Fin 1 → Fin S1x1.rank)
  bcast_S1x1_S281600x1_0_1 : S1x1.BroadcastsInDim S281600x1 (![0, 1] : Fin 2 → Fin S281600x1.rank)
  reducesTo_S281600x1_S281600_d1 : S281600x1.ReducesTo [1] S281600
  h_S_ : 0 < S_.numel
  bcast_S281600_S281600x256_0 : S281600.BroadcastsInDim S281600x256 (![0] : Fin 1 → Fin S281600x256.rank)
  bcast_S_S281600x256 : S_.BroadcastsInDim S281600x256 (![] : Fin 0 → Fin S281600x256.rank)
  bcast_S_S11264x256 : S_.BroadcastsInDim S11264x256 (![] : Fin 0 → Fin S11264x256.rank)
  bcast_S_S11264 : S_.BroadcastsInDim S11264 (![] : Fin 0 → Fin S11264.rank)
  bcast_S11264_S11264x1_0 : S11264.BroadcastsInDim S11264x1 (![0] : Fin 1 → Fin S11264x1.rank)
  bcast_S11264x1_S11264x256_0_1 : S11264x1.BroadcastsInDim S11264x256 (![0, 1] : Fin 2 → Fin S11264x256.rank)
  slices_S292864x256_S11264x256_0_0 : S292864x256.Slices ![0, 0] S11264x256
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  bcast_S_S10240 : S_.BroadcastsInDim S10240 (![] : Fin 0 → Fin S10240.rank)
  bcast_S10240_S10240x1_0 : S10240.BroadcastsInDim S10240x1 (![0] : Fin 1 → Fin S10240x1.rank)
  bcast_S_S10240x1 : S_.BroadcastsInDim S10240x1 (![] : Fin 0 → Fin S10240x1.rank)
  bcast_S1x1_S10240x1_0_1 : S1x1.BroadcastsInDim S10240x1 (![0, 1] : Fin 2 → Fin S10240x1.rank)
  reducesTo_S10240x1_S10240_d1 : S10240x1.ReducesTo [1] S10240
  bcast_S10240_S10240x256_0 : S10240.BroadcastsInDim S10240x256 (![0] : Fin 1 → Fin S10240x256.rank)
  bcast_S_S10240x256 : S_.BroadcastsInDim S10240x256 (![] : Fin 0 → Fin S10240x256.rank)
  bcast_S_S1024x256 : S_.BroadcastsInDim S1024x256 (![] : Fin 0 → Fin S1024x256.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  slices_S11264x256_S1024x256_0_0 : S11264x256.Slices ![0, 0] S1024x256
  shapeCasts_S47_S1x47 : S47.ShapeCasts S1x47
  inb_S256x47_S256x47_0_0 : ∀ a, (![0, 0] : Fin 2 → Nat) a + S256x47.size a ≤ S256x47.size a
  h_S256x47 : 0 < S256x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S1024x47 : S1x47.Broadcasts S1024x47
  inb_S1024x47_S1024x47_0_0 : ∀ a, (![0, 0] : Fin 2 → Nat) a + S1024x47.size a ≤ S1024x47.size a
  h_S1024x47 : 0 < S1024x47.numel
  gather_S292864x256_S281600x1_S281600x256_1_0_n_n_0_1_1256_wf : GatherDims.WF S292864x256 S281600x1 S281600x256 [1] [0] [] [0] [] 1 ![1, 256]
  scatter_S11264x256_S281600x1_S281600x256_1_0_0_1_wf : ScatterDims.WF S11264x256 S281600x1 S281600x256 [1] [0] [0] 1
  scatter_S11264_S281600x1_S281600_n_0_0_1_wf : ScatterDims.WF S11264 S281600x1 S281600 [] [0] [0] 1
  dot_S1024x256_S256x256_S1024x256_1_0_0_1_n_n_wf : DotDims.WF S1024x256 S256x256 S1024x256 [1] [0] [0] [1] [] []
  gather_S11264x256_S10240x1_S10240x256_1_0_n_n_0_1_1256_wf : GatherDims.WF S11264x256 S10240x1 S10240x256 [1] [0] [] [0] [] 1 ![1, 256]
  scatter_S1024x256_S10240x1_S10240x256_1_0_0_1_wf : ScatterDims.WF S1024x256 S10240x1 S10240x256 [1] [0] [0] 1
  scatter_S1024_S10240x1_S10240_n_0_0_1_wf : ScatterDims.WF S1024 S10240x1 S10240 [] [0] [0] 1
  dot_S1024x256_S256x47_S1024x47_1_0_0_1_n_n_wf : DotDims.WF S1024x256 S256x47 S1024x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S11264x256.size a
  hwx0_0 : ∀ i : grid0.Coords, EltTy.bits .f32 = 32 ∨ (Rect.block (s := S11264x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S11264x256.size a
  hwx0_1 : ∀ i : grid0.Coords, EltTy.bits .f32 = 32 ∨ (Rect.block (s := S11264x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S11264x256.size a
  hwx0_5 : ∀ i : grid0.Coords, EltTy.bits .f32 = 32 ∨ (Rect.block (s := S11264x256) S1024x256.size (cc0_transform_5 i) (hinb0_5 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S1024x256.size a
  hwx1_0 : ∀ i : grid1.Coords, EltTy.bits .f32 = 32 ∨ (Rect.block (s := S1024x256) S1024x256.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S1024x256.size a
  hwx1_1 : ∀ i : grid1.Coords, EltTy.bits .f32 = 32 ∨ (Rect.block (s := S1024x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x47.size a ≤ S256x47.size a
  hwx1_2 : ∀ i : grid1.Coords, EltTy.bits .f32 = 32 ∨ (Rect.block (s := S256x47) S256x47.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x47.size a ≤ S256x47.size a
  hwx1_3 : ∀ i : grid1.Coords, EltTy.bits .f32 = 32 ∨ (Rect.block (s := S256x47) S256x47.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x47.size a ≤ S1x47.size a
  hwx1_4 : ∀ i : grid1.Coords, EltTy.bits .f32 = 32 ∨ (Rect.block (s := S1x47) S1x47.size (cc1_transform_4 i) (hinb1_4 i)).WholeWords (EltTy.packing .f32)
  hstage1_5 : ∀ j, (stage1_5 j).IsWhole
  nbuf1_5 : grid1.bufCount reads1_5 false = 1
  hreads1_5 : ∀ i i' : grid1.Coords, (∀ a, reads1_5 a = true → i a = i' a) → cc1_transform_5 i = cc1_transform_5 i'
  hinb1_5 : ∀ (i : grid1.Coords) a, (cc1_transform_5 i a + 1) * S1024x47.size a ≤ S1024x47.size a
  hwx1_5 : ∀ i : grid1.Coords, EltTy.bits .f32 = 32 ∨ (Rect.block (s := S1024x47) S1024x47.size (cc1_transform_5 i) (hinb1_5 i)).WholeWords (EltTy.packing .f32)

variable [Facts₀]

def gather_S292864x256_S281600x1_S281600x256_1_0_n_n_0_1_1256 : GatherDims S292864x256 S281600x1 S281600x256 where
  offsetDims := [1]
  collapsedSliceDims := [0]
  operandBatchingDims := []
  startIndicesBatchingDims := []
  startIndexMap := [0]
  indexVectorDim := 1
  sliceSizes := ![1, 256]
  wf := gather_S292864x256_S281600x1_S281600x256_1_0_n_n_0_1_1256_wf
def scatter_S11264x256_S281600x1_S281600x256_1_0_0_1 : ScatterDims S11264x256 S281600x1 S281600x256 where
  updateWindowDims := [1]
  insertedWindowDims := [0]
  scatterDimsToOperandDims := [0]
  indexVectorDim := 1
  wf := scatter_S11264x256_S281600x1_S281600x256_1_0_0_1_wf
def scatter_S11264_S281600x1_S281600_n_0_0_1 : ScatterDims S11264 S281600x1 S281600 where
  updateWindowDims := []
  insertedWindowDims := [0]
  scatterDimsToOperandDims := [0]
  indexVectorDim := 1
  wf := scatter_S11264_S281600x1_S281600_n_0_0_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def gather_S11264x256_S10240x1_S10240x256_1_0_n_n_0_1_1256 : GatherDims S11264x256 S10240x1 S10240x256 where
  offsetDims := [1]
  collapsedSliceDims := [0]
  operandBatchingDims := []
  startIndicesBatchingDims := []
  startIndexMap := [0]
  indexVectorDim := 1
  sliceSizes := ![1, 256]
  wf := gather_S11264x256_S10240x1_S10240x256_1_0_n_n_0_1_1256_wf
def scatter_S1024x256_S10240x1_S10240x256_1_0_0_1 : ScatterDims S1024x256 S10240x1 S10240x256 where
  updateWindowDims := [1]
  insertedWindowDims := [0]
  scatterDimsToOperandDims := [0]
  indexVectorDim := 1
  wf := scatter_S1024x256_S10240x1_S10240x256_1_0_0_1_wf
def scatter_S1024_S10240x1_S10240_n_0_0_1 : ScatterDims S1024 S10240x1 S10240 where
  updateWindowDims := []
  insertedWindowDims := [0]
  scatterDimsToOperandDims := [0]
  indexVectorDim := 1
  wf := scatter_S1024_S10240x1_S10240_n_0_0_1_wf
def dot_S1024x256_S256x47_S1024x47_1_0_0_1_n_n : DotDims S1024x256 S256x47 S1024x47 where
  lhsContracting := [1]
  rhsContracting := [0]
  lhsNonContracting := [0]
  rhsNonContracting := [1]
  lhsBatch := []
  rhsBatch := []
  wf := dot_S1024x256_S256x47_S1024x47_1_0_0_1_n_n_wf

abbrev win0_0 : Pipeline.Window sig grid0 :=
  Pipeline.Window.ofSpec (Memref.whole main_v13) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S1024x256.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1024x256.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x47.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S256x47.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x47.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1024x47.size cc1_transform_5 reads1_5 true false 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S292864x256 : Shape := ⟨2, ![292864, 256]⟩
abbrev S281600 : Shape := ⟨1, ![281600]⟩
abbrev S10240 : Shape := ⟨1, ![10240]⟩
abbrev S256x256 : Shape := ⟨2, ![256, 256]⟩
abbrev S256 : Shape := ⟨1, ![256]⟩
abbrev S256x47 : Shape := ⟨2, ![256, 47]⟩
abbrev S47 : Shape := ⟨1, ![47]⟩
abbrev S_ : Shape := ⟨0, ![]⟩
abbrev S281600x1 : Shape := ⟨2, ![281600, 1]⟩
abbrev S281600x256 : Shape := ⟨2, ![281600, 256]⟩
abbrev S11264x256 : Shape := ⟨2, ![11264, 256]⟩
abbrev S11264 : Shape := ⟨1, ![11264]⟩
abbrev S11264x1 : Shape := ⟨2, ![11264, 1]⟩
abbrev S1x256 : Shape := ⟨2, ![1, 256]⟩
abbrev S10240x1 : Shape := ⟨2, ![10240, 1]⟩
abbrev S10240x256 : Shape := ⟨2, ![10240, 256]⟩
abbrev S1024x256 : Shape := ⟨2, ![1024, 256]⟩
abbrev S1024 : Shape := ⟨1, ![1024]⟩
abbrev S1024x1 : Shape := ⟨2, ![1024, 1]⟩
abbrev S1024x47 : Shape := ⟨2, ![1024, 47]⟩
abbrev S1x47 : Shape := ⟨2, ![1, 47]⟩

abbrev nBuf : Space → Nat
  | .hbm => 78
  | .vmem => 0
  | .smem => 0
  | _ => 0

abbrev bufTy : (tb : Table) → Fin (tcTables nBuf tb) → BufTy
  | .hbm, ⟨0, _⟩ => ⟨S292864x256, .f32⟩
  | .hbm, ⟨1, _⟩ => ⟨S281600, .i32⟩
  | .hbm, ⟨2, _⟩ => ⟨S281600, .i32⟩
  | .hbm, ⟨3, _⟩ => ⟨S10240, .i32⟩
  | .hbm, ⟨4, _⟩ => ⟨S10240, .i32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x47, .f32⟩
  | .hbm, ⟨9, _⟩ => ⟨S256x47, .f32⟩
  | .hbm, ⟨10, _⟩ => ⟨S47, .f32⟩
  | .hbm, ⟨11, _⟩ => ⟨S_, .i32⟩
  | .hbm, ⟨12, _⟩ => ⟨S281600, .i32⟩
  | .hbm, ⟨13, _⟩ => ⟨S281600, .i1⟩
  | .hbm, ⟨14, _⟩ => ⟨S_, .i32⟩
  | .hbm, ⟨15, _⟩ => ⟨S281600, .i32⟩
  | .hbm, ⟨16, _⟩ => ⟨S281600, .i32⟩
  | .hbm, ⟨17, _⟩ => ⟨S281600, .i32⟩
  | .hbm, ⟨18, _⟩ => ⟨S281600x1, .i32⟩
  | .hbm, ⟨19, _⟩ => ⟨S281600x256, .f32⟩
  | .hbm, ⟨20, _⟩ => ⟨S_, .f32⟩
  | .hbm, ⟨21, _⟩ => ⟨S11264x256, .f32⟩
  | .hbm, ⟨22, _⟩ => ⟨S281600x1, .i32⟩
  | .hbm, ⟨23, _⟩ => ⟨S11264x256, .f32⟩
  | .hbm, ⟨24, _⟩ => ⟨S_, .f32⟩
  | .hbm, ⟨25, _⟩ => ⟨S281600, .f32⟩
  | .hbm, ⟨26, _⟩ => ⟨S_, .f32⟩
  | .hbm, ⟨27, _⟩ => ⟨S11264, .f32⟩
  | .hbm, ⟨28, _⟩ => ⟨S281600x1, .i32⟩
  | .hbm, ⟨29, _⟩ => ⟨S11264, .f32⟩
  | .hbm, ⟨30, _⟩ => ⟨S_, .f32⟩
  | .hbm, ⟨31, _⟩ => ⟨S11264, .f32⟩
  | .hbm, ⟨32, _⟩ => ⟨S11264, .f32⟩
  | .hbm, ⟨33, _⟩ => ⟨S11264x1, .f32⟩
  | .hbm, ⟨34, _⟩ => ⟨S11264x256, .f32⟩
  | .hbm, ⟨35, _⟩ => ⟨S11264x256, .f32⟩
  | .hbm, ⟨36, _⟩ => ⟨S11264x256, .f32⟩
  | .hbm, ⟨37, _⟩ => ⟨S11264x256, .f32⟩
  | .hbm, ⟨38, _⟩ => ⟨S11264x256, .f32⟩
  | .hbm, ⟨39, _⟩ => ⟨S11264x256, .f32⟩
  | .hbm, ⟨40, _⟩ => ⟨S1x256, .f32⟩
  | .hbm, ⟨41, _⟩ => ⟨S11264x256, .f32⟩
  | .hbm, ⟨42, _⟩ => ⟨S11264x256, .f32⟩
  | .hbm, ⟨43, _⟩ => ⟨S_, .f32⟩
  | .hbm, ⟨44, _⟩ => ⟨S11264x256, .f32⟩
  | .hbm, ⟨45, _⟩ => ⟨S11264x256, .f32⟩
  | .hbm, ⟨46, _⟩ => ⟨S_, .i32⟩
  | .hbm, ⟨47, _⟩ => ⟨S10240, .i32⟩
  | .hbm, ⟨48, _⟩ => ⟨S10240, .i1⟩
  | .hbm, ⟨49, _⟩ => ⟨S_, .i32⟩
  | .hbm, ⟨50, _⟩ => ⟨S10240, .i32⟩
  | .hbm, ⟨51, _⟩ => ⟨S10240, .i32⟩
  | .hbm, ⟨52, _⟩ => ⟨S10240, .i32⟩
  | .hbm, ⟨53, _⟩ => ⟨S10240x1, .i32⟩
  | .hbm, ⟨54, _⟩ => ⟨S10240x256, .f32⟩
  | .hbm, ⟨55, _⟩ => ⟨S_, .f32⟩
  | .hbm, ⟨56, _⟩ => ⟨S1024x256, .f32⟩
  | .hbm, ⟨57, _⟩ => ⟨S10240x1, .i32⟩
  | .hbm, ⟨58, _⟩ => ⟨S1024x256, .f32⟩
  | .hbm, ⟨59, _⟩ => ⟨S_, .f32⟩
  | .hbm, ⟨60, _⟩ => ⟨S10240, .f32⟩
  | .hbm, ⟨61, _⟩ => ⟨S_, .f32⟩
  | .hbm, ⟨62, _⟩ => ⟨S1024, .f32⟩
  | .hbm, ⟨63, _⟩ => ⟨S10240x1, .i32⟩
  | .hbm, ⟨64, _⟩ => ⟨S1024, .f32⟩
  | .hbm, ⟨65, _⟩ => ⟨S_, .f32⟩
  | .hbm, ⟨66, _⟩ => ⟨S1024, .f32⟩
  | .hbm, ⟨67, _⟩ => ⟨S1024, .f32⟩
  | .hbm, ⟨68, _⟩ => ⟨S1024x1, .f32⟩
  | .hbm, ⟨69, _⟩ => ⟨S1024x256, .f32⟩
  | .hbm, ⟨70, _⟩ => ⟨S1024x256, .f32⟩
  | .hbm, ⟨71, _⟩ => ⟨S1024x256, .f32⟩
  | .hbm, ⟨72, _⟩ => ⟨S1024x47, .f32⟩
  | .hbm, ⟨73, _⟩ => ⟨S1024x47, .f32⟩
  | .hbm, ⟨74, _⟩ => ⟨S1024x47, .f32⟩
  | .hbm, ⟨75, _⟩ => ⟨S1x47, .f32⟩
  | .hbm, ⟨76, _⟩ => ⟨S1024x47, .f32⟩
  | .hbm, ⟨77, _⟩ => ⟨S1024x47, .f32⟩
  | _, _ => ⟨S292864x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]

class Facts₀ : Prop where
  bcast_S_S281600 : S_.BroadcastsInDim S281600 (![] : Fin 0 → Fin S281600.rank)
  bcast_S281600_S281600x1_0 : S281600.BroadcastsInDim S281600x1 (![0] : Fin 1 → Fin S281600x1.rank)
  bcast_S_S11264x256 : S_.BroadcastsInDim S11264x256 (![] : Fin 0 → Fin S11264x256.rank)
  bcast_S_S11264 : S_.BroadcastsInDim S11264 (![] : Fin 0 → Fin S11264.rank)
  bcast_S11264_S11264x1_0 : S11264.BroadcastsInDim S11264x1 (![0] : Fin 1 → Fin S11264x1.rank)
  bcast_S11264x1_S11264x256_0_1 : S11264x1.BroadcastsInDim S11264x256 (![0, 1] : Fin 2 → Fin S11264x256.rank)
  slices_S292864x256_S11264x256_0_0 : S292864x256.Slices ![0, 0] S11264x256
  bcast_S256_S1x256_1 : S256.BroadcastsInDim S1x256 (![1] : Fin 1 → Fin S1x256.rank)
  bcast_S1x256_S11264x256_0_1 : S1x256.BroadcastsInDim S11264x256 (![0, 1] : Fin 2 → Fin S11264x256.rank)
  bcast_S_S10240 : S_.BroadcastsInDim S10240 (![] : Fin 0 → Fin S10240.rank)
  bcast_S10240_S10240x1_0 : S10240.BroadcastsInDim S10240x1 (![0] : Fin 1 → Fin S10240x1.rank)
  bcast_S_S1024x256 : S_.BroadcastsInDim S1024x256 (![] : Fin 0 → Fin S1024x256.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  slices_S11264x256_S1024x256_0_0 : S11264x256.Slices ![0, 0] S1024x256
  bcast_S47_S1x47_1 : S47.BroadcastsInDim S1x47 (![1] : Fin 1 → Fin S1x47.rank)
  bcast_S1x47_S1024x47_0_1 : S1x47.BroadcastsInDim S1024x47 (![0, 1] : Fin 2 → Fin S1024x47.rank)
  gather_S292864x256_S281600x1_S281600x256_1_0_n_n_0_1_1256_wf : GatherDims.WF S292864x256 S281600x1 S281600x256 [1] [0] [] [0] [] 1 ![1, 256]
  scatter_S11264x256_S281600x1_S281600x256_1_0_0_1_wf : ScatterDims.WF S11264x256 S281600x1 S281600x256 [1] [0] [0] 1
  scatter_S11264_S281600x1_S281600_n_0_0_1_wf : ScatterDims.WF S11264 S281600x1 S281600 [] [0] [0] 1
  dot_S11264x256_S256x256_S11264x256_1_0_0_1_n_n_wf : DotDims.WF S11264x256 S256x256 S11264x256 [1] [0] [0] [1] [] []
  gather_S11264x256_S10240x1_S10240x256_1_0_n_n_0_1_1256_wf : GatherDims.WF S11264x256 S10240x1 S10240x256 [1] [0] [] [0] [] 1 ![1, 256]
  scatter_S1024x256_S10240x1_S10240x256_1_0_0_1_wf : ScatterDims.WF S1024x256 S10240x1 S10240x256 [1] [0] [0] 1
  scatter_S1024_S10240x1_S10240_n_0_0_1_wf : ScatterDims.WF S1024 S10240x1 S10240 [] [0] [0] 1
  dot_S1024x256_S256x47_S1024x47_1_0_0_1_n_n_wf : DotDims.WF S1024x256 S256x47 S1024x47 [1] [0] [0] [1] [] []

variable [Facts₀]

def gather_S292864x256_S281600x1_S281600x256_1_0_n_n_0_1_1256 : GatherDims S292864x256 S281600x1 S281600x256 where
  offsetDims := [1]
  collapsedSliceDims := [0]
  operandBatchingDims := []
  startIndicesBatchingDims := []
  startIndexMap := [0]
  indexVectorDim := 1
  sliceSizes := ![1, 256]
  wf := gather_S292864x256_S281600x1_S281600x256_1_0_n_n_0_1_1256_wf
def scatter_S11264x256_S281600x1_S281600x256_1_0_0_1 : ScatterDims S11264x256 S281600x1 S281600x256 where
  updateWindowDims := [1]
  insertedWindowDims := [0]
  scatterDimsToOperandDims := [0]
  indexVectorDim := 1
  wf := scatter_S11264x256_S281600x1_S281600x256_1_0_0_1_wf
def scatter_S11264_S281600x1_S281600_n_0_0_1 : ScatterDims S11264 S281600x1 S281600 where
  updateWindowDims := []
  insertedWindowDims := [0]
  scatterDimsToOperandDims := [0]
  indexVectorDim := 1
  wf := scatter_S11264_S281600x1_S281600_n_0_0_1_wf
def dot_S11264x256_S256x256_S11264x256_1_0_0_1_n_n : DotDims S11264x256 S256x256 S11264x256 where
  lhsContracting := [1]
  rhsContracting := [0]
  lhsNonContracting := [0]
  rhsNonContracting := [1]
  lhsBatch := []
  rhsBatch := []
  wf := dot_S11264x256_S256x256_S11264x256_1_0_0_1_n_n_wf
def gather_S11264x256_S10240x1_S10240x256_1_0_n_n_0_1_1256 : GatherDims S11264x256 S10240x1 S10240x256 where
  offsetDims := [1]
  collapsedSliceDims := [0]
  operandBatchingDims := []
  startIndicesBatchingDims := []
  startIndexMap := [0]
  indexVectorDim := 1
  sliceSizes := ![1, 256]
  wf := gather_S11264x256_S10240x1_S10240x256_1_0_n_n_0_1_1256_wf
def scatter_S1024x256_S10240x1_S10240x256_1_0_0_1 : ScatterDims S1024x256 S10240x1 S10240x256 where
  updateWindowDims := [1]
  insertedWindowDims := [0]
  scatterDimsToOperandDims := [0]
  indexVectorDim := 1
  wf := scatter_S1024x256_S10240x1_S10240x256_1_0_0_1_wf
def scatter_S1024_S10240x1_S10240_n_0_0_1 : ScatterDims S1024 S10240x1 S10240 where
  updateWindowDims := []
  insertedWindowDims := [0]
  scatterDimsToOperandDims := [0]
  indexVectorDim := 1
  wf := scatter_S1024_S10240x1_S10240_n_0_0_1_wf
def dot_S1024x256_S256x47_S1024x47_1_0_0_1_n_n : DotDims S1024x256 S256x47 S1024x47 where
  lhsContracting := [1]
  rhsContracting := [0]
  lhsNonContracting := [0]
  rhsNonContracting := [1]
  lhsBatch := []
  rhsBatch := []
  wf := dot_S1024x256_S256x47_S1024x47_1_0_0_1_n_n_wf

class Facts : Prop extends Facts₀ where

variable [Facts]
-- ==== Proof.PreRange.lean ====
/-
  The precondition, read. It is a conjunction: every floating-point input is finite, and the two arrays of source
  row numbers lie in the range in which a row number addresses a row of the table it indexes, counting from the front
  or, when negative, from the back: at least minus the number of rows and less than the number of rows. Only the
  second part is used by the certificate; this module extracts it as inequalities between integers.
-/
import proofs.«428940_j40097814676057_1_alg».proof.Pre_finite_inputs
import Idealize.ShloMosaic.Lib.ValueIdx
import Idealize.ShloMosaic.Lib.ReduceAll
import Idealize.ShloMosaic.Lib.StableHlo.Predicate

noncomputable section

open Idealize.ShloMosaic Idealize.ShloMosaic.ValueIdx

namespace Cert.Pre_finite_inputs.Hand

open Cert.Pre_finite_inputs

variable {F : FTy → Type} [FloatOps F] [Cert.Pre_finite_inputs.Facts]

/-- A shape with no axes has exactly one index. -/
instance scalarIdxSubsingleton : Subsingleton S_.Idx := ⟨fun a b => funext fun d => d.elim0⟩

/-! The four bounds as the precondition writes them: 32-bit words, the negative ones in two's complement. Read as
    signed integers they are the numbers of rows of the two tables and their negatives. -/

theorem toInt_lo1 : (4294674432#32 : BitVec 32).toInt = -292864 := by decide
theorem toInt_hi1 : (292864#32 : BitVec 32).toInt = 292864 := by decide
theorem toInt_lo2 : (4294956032#32 : BitVec 32).toInt = -11264 := by decide
theorem toInt_hi2 : (11264#32 : BitVec 32).toInt = 11264 := by decide

/-- The tail of the precondition, whatever the conjunction of the finiteness tests before it evaluates to. It is a chain
    of five conjuncts joined by "and" on one-bit words, nested to the left, so the last conjunct is the outermost second
    operand. A one-bit "and" is 1 exactly when both operands are; peeling four times leaves the four range tests. Each
    range test is an "and" over all entries of an entrywise signed comparison against a constant spread over the array,
    so it being 1 gives the comparison at every entry, and a signed comparison word being 1 is the corresponding
    inequality between the signed readings. -/
theorem part2_ranges (a1 : IVec S281600 32) (a3 : IVec S10240 32) (v33 : IVec S_ 1)
    (h : fn_part2 (F := F) a1 a3 v33 ValueIdx.ix0 = 1#1) :
    (∀ e : S281600.Idx, -292864 ≤ (a1 e).toInt ∧ (a1 e).toInt < 292864)
      ∧ (∀ e : S10240.Idx, -11264 ≤ (a3 e).toInt ∧ (a3 e).toInt < 11264) := by
  unfold fn_part2 at h
  -- peel the conjunction from the outside: the second operand at each level is the last remaining conjunct
  obtain ⟨h123, h4⟩ := IntOp.andi_eq_one.1 h
  obtain ⟨h12, h3⟩ := IntOp.andi_eq_one.1 h123
  obtain ⟨h1, h2⟩ := IntOp.andi_eq_one.1 h12
  obtain ⟨_, h1'⟩ := IntOp.andi_eq_one.1 h1
  refine ⟨fun e => ⟨?_, ?_⟩, fun e => ⟨?_, ?_⟩⟩
  · -- first array, lower bound: the spread constant reads the same word at every entry
    have c : IntOp.cmpi .sge (a1 e) 4294674432#32 = 1#1 := Host.reduce_andi_all _ _ _ _ _ h1' e
    have := IntOp.cmpi_sge.1 c
    rw [toInt_lo1] at this; exact this
  · -- first array, upper bound
    have c : IntOp.cmpi .slt (a1 e) 292864#32 = 1#1 := Host.reduce_andi_all _ _ _ _ _ h2 e
    have := IntOp.cmpi_slt.1 c
    rw [toInt_hi1] at this; exact this
  · -- second array, lower bound
    have c : IntOp.cmpi .sge (a3 e) 4294956032#32 = 1#1 := Host.reduce_andi_all _ _ _ _ _ h3 e
    have := IntOp.cmpi_sge.1 c
    rw [toInt_lo2] at this; exact this
  · -- second array, upper bound
    have c : IntOp.cmpi .slt (a3 e) 11264#32 = 1#1 := Host.reduce_andi_all _ _ _ _ _ h4 e
    have := IntOp.cmpi_slt.1 c
    rw [toInt_hi2] at this; exact this

/-- Where the precondition holds, every entry of the two arrays of source row numbers is in range. -/
theorem src_ranges (a0 : FVec F S292864x256 .f32) (a1 a2 : IVec S281600 32) (a3 a4 : IVec S10240 32)
    (a5 a6 : FVec F S256x256 .f32) (a7 : FVec F S256 .f32) (a8 a9 : FVec F S256x47 .f32) (a10 : FVec F S47 .f32)
    (h : Cert.Pre_finite_inputs.fn (F := F) a0 a1 a2 a3 a4 a5 a6 a7 a8 a9 a10 = fun _ => 1#1) :
    (∀ e : S281600.Idx, -292864 ≤ (a1 e).toInt ∧ (a1 e).toInt < 292864)
      ∧ (∀ e : S10240.Idx, -11264 ≤ (a3 e).toInt ∧ (a3 e).toInt < 11264) := by
  -- the precondition is a one-entry array; read its entry. The function is its finiteness part followed by the tail
  -- above, applied to the two index arrays and to the finiteness part's value, which the tail lemma leaves arbitrary.
  have h0 := congrFun h ValueIdx.ix0
  unfold Cert.Pre_finite_inputs.fn Cert.Pre_finite_inputs.fn_part1 at h0
  exact part2_ranges a1 a3 _ h0

end Cert.Pre_finite_inputs.Hand

end
-- ==== Proof.Spec.lean ====
/-
  The mathematics of one mean-aggregation graph layer, entry by entry.

  A layer takes the features of the destination nodes `hs` (M rows of K features), the mean of their neighbours'
  features `hn` (the same shape), two K × N weight matrices and a bias row, and returns, at row `a` and column `j`,

      (∑ k, hs a k · ws k j) + (∑ k, hn a k · wn k j) + b j

  (`entry`). The hidden layer clips that at zero from below (`hidden`); the output layer returns it as it is
  (`output`). Everything is over the extended reals; the two sums and the bias are added in this order on both
  sides of the certificate, so no law of the extended reals beyond reading each operation at an entry is used.
-/
import Idealize.ShloMosaic.PureOps.Ideal
import Idealize.ShloMosaic.Lib.ValueIdx

noncomputable section

open scoped BigOperators

namespace Cert.Sage

open Idealize.ShloMosaic Idealize.ShloMosaic.ValueIdx

/-- An M × N array of extended reals. -/
abbrev Mat (M N : Nat) : Type := (⟨2, ![M, N]⟩ : Shape).Idx → EReal

/-- A vector of N entries as a 1 × N row. -/
def row {N : Nat} (b : (⟨1, ![N]⟩ : Shape).Idx → EReal) : Mat 1 N := fun i => b (ix1 ⟨(i 1).val, idx2_lt1 i⟩)

theorem row_ix2 {N : Nat} (b : (⟨1, ![N]⟩ : Shape).Idx → EReal) (z : Fin 1) (j : Fin N) : row b (ix2 z j) = b (ix1 j) := rfl

/-- One entry of a layer before any clipping: the two matrix products at `(a, j)` added, then the bias. -/
def entry {M K N : Nat} (hs hn : Mat M K) (ws wn : Mat K N) (b : Mat 1 N) (a : Fin M) (j : Fin N) : EReal :=
  (∑ k : Fin K, hs (ix2 a k) * ws (ix2 k j) + ∑ k : Fin K, hn (ix2 a k) * wn (ix2 k j)) + b (ix2 0 j)

/-- The hidden layer: every entry clipped at zero from below. -/
def hidden {M K N : Nat} (hs hn : Mat M K) (ws wn : Mat K N) (b : Mat 1 N) : Mat M N :=
  fun i => max (entry hs hn ws wn b ⟨(i 0).val, idx2_lt0 i⟩ ⟨(i 1).val, idx2_lt1 i⟩) 0

/-- The output layer: the entries as they are. -/
def output {M K N : Nat} (hs hn : Mat M K) (ws wn : Mat K N) (b : Mat 1 N) : Mat M N :=
  fun i => entry hs hn ws wn b ⟨(i 0).val, idx2_lt0 i⟩ ⟨(i 1).val, idx2_lt1 i⟩

theorem hidden_ix2 {M K N : Nat} (hs hn : Mat M K) (ws wn : Mat K N) (b : Mat 1 N) (a : Fin M) (j : Fin N) :
    hidden hs hn ws wn b (ix2 a j) = max (entry hs hn ws wn b a j) 0 := rfl

theorem output_ix2 {M K N : Nat} (hs hn : Mat M K) (ws wn : Mat K N) (b : Mat 1 N) (a : Fin M) (j : Fin N) :
    output hs hn ws wn b (ix2 a j) = entry hs hn ws wn b a j := rfl

/-- Two arrays that agree at every `(a, j)` are equal. -/
theorem ext_ix2 {M N : Nat} {f g : Mat M N} (h : ∀ (a : Fin M) (j : Fin N), f (ix2 a j) = g (ix2 a j)) : f = g :=
  funext fun i => by rw [eq_ix2 i]; exact h _ _

end Cert.Sage

end
-- ==== Proof.TakeFill.lean ====
/-
  Taking rows with a fill value against taking rows with clamping. The kernel's host code takes row `s e` of a
  table for every `e`, wraps a negative row number by adding the number of rows, and then replaces the taken row by a
  fill value wherever the wrapped row number is not inside the table. When every row number lies between minus the
  number of rows (inclusive) and the number of rows (exclusive), every wrapped row number is inside the table, the mask
  is true everywhere, and the result is the plain gather of the wrapped rows.
-/
import proofs.«428940_j40097814676057_1_alg».proof.Proof.Gen.KernelIdeal
import Idealize.ShloMosaic.Lib.ValueIdx
import Idealize.ShloMosaic.Lib.ValueLayout
import Idealize.ShloMosaic.Lib.ReduceAll
import Idealize.ShloMosaic.Lib.StableHlo.Predicate
import Idealize.ShloMosaic.Lib.WordArith

noncomputable section

open Idealize.ShloMosaic Idealize.ShloMosaic.ValueIdx

namespace Cert.KernelIdeal.Hand

open Cert.KernelIdeal Cert.KernelIdeal.Gen

variable {F : FTy → Type} [FloatOps F]

/-- A 32-bit row number `v` between `-N` (inclusive) and `N` (exclusive), with `N` added when it is negative, lies
    between `0` and `N - 1`: both signed comparisons of the wrapped word hold. The sum does not leave the signed range
    because it lies in `[0, N)`. -/
theorem wrap_word (v c d : BitVec 32) (N : Int) (hc : c.toInt = N) (hd : d.toInt = N - 1)
    (hN : 0 < N) (hN' : N ≤ 2 ^ 30) (h : -N ≤ v.toInt ∧ v.toInt < N) :
    IntOp.andi
      (IntOp.cmpi .sge (Scalar.select (IntOp.cmpi .slt v 0#32) (IntOp.addi v c) v) 0#32)
      (IntOp.cmpi .sle (Scalar.select (IntOp.cmpi .slt v 0#32) (IntOp.addi v c) v) d) = 1#1 := by
  have h0 : (0#32 : BitVec 32).toInt = 0 := by decide
  rw [IntOp.andi_eq_one, IntOp.cmpi_sge, IntOp.cmpi_sle, h0, hd]
  by_cases hv : IntOp.cmpi .slt v 0#32 = 1#1
  · rw [hv, select_one]
    rw [IntOp.cmpi_slt, h0] at hv
    have e : (IntOp.addi v c).toInt = v.toInt + c.toInt :=
      WordArith.toInt_add_of_bounds v c (by omega) (by omega)
    rw [e, hc]; omega
  · rw [eq_zero_of_ne_one hv, select_zero]
    rw [IntOp.cmpi_slt, h0] at hv
    omega

/-- A left fold by `and` from 1 over one-bit words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- A reduction by `and` from the initial value 1 of an array of one-bit words that are all 1 is 1 at every result
    index, whatever the reduced axes. -/
theorem reduce_andi_ones {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_ones x hx _

/-- A broadcast of an array of one-bit words that are all 1 is 1 at every index. -/
theorem broadcastInDim_ones {s t : Shape} (dims : Fin s.rank → Fin t.rank) (h : s.BroadcastsInDim t dims)
    (x : s.Idx → BitVec 1) (hx : ∀ k, x k = 1#1) (j : t.Idx) : broadcastInDim t dims h x j = 1#1 :=
  hx _

/-- The start rows of the first gather: a negative row number wrapped by adding 292864, as a column. -/
def starts1 (s : IVec S281600 32) : IVec S281600x1 32 :=
  broadcastInDim S281600x1 ![0] bcast_S281600_S281600x1_0
    (select (cmpi .slt s (broadcastInDim S281600 ![] bcast_S_S281600 (constantI S_ 32 0#32)))
      (addi s (broadcastInDim S281600 ![] bcast_S_S281600 (constantI S_ 32 292864#32))) s)

/-- The first take as the kernel's host code computes it: the gathered rows where the wrapped row number is inside the
    table, the fill value elsewhere. -/
def take1 (x : FVec F S292864x256 .f32) (s : IVec S281600 32) : FVec F S281600x256 .f32 :=
  select
    (broadcastInDim S281600x256 ![0] bcast_S281600_S281600x256_0
      (Host.reduce IntOp.andi
        (andi (cmpi .sge (starts1 s) (broadcastInDim S281600x1 ![] bcast_S_S281600x1 (constantI S_ 32 0#32)))
          (cmpi .sle (starts1 s)
            (broadcastInDim S281600x1 ![0, 1] bcast_S1x1_S281600x1_0_1 (broadcastInDim S1x1 ![1] bcast_S1_S1x1_1 (constantI S1 32 292863#32)))))
        (constantI S_ 1 1#1) reducesTo_S281600x1_S281600_d1 h_S_))
    (Host.gather gather_S292864x256_S281600x1_S281600x256_1_0_n_n_0_1_1256 x (starts1 s))
    (broadcastInDim S281600x256 ![] bcast_S_S281600x256 (constant S_ .f32 0x7FC00000#32))

/-- With every row number in range, both range tests of the first take hold at every entry of the column of wrapped
    row numbers. -/
theorem mask1_ones (s : IVec S281600 32)
    (hs : ∀ e : S281600.Idx, -292864 ≤ (s e).toInt ∧ (s e).toInt < 292864) (i : S281600x1.Idx) :
    andi (cmpi .sge (starts1 s) (broadcastInDim S281600x1 ![] bcast_S_S281600x1 (constantI S_ 32 0#32)))
      (cmpi .sle (starts1 s)
        (broadcastInDim S281600x1 ![0, 1] bcast_S1x1_S281600x1_0_1 (broadcastInDim S1x1 ![1] bcast_S1_S1x1_1 (constantI S1 32 292863#32)))) i
      = 1#1 :=
  wrap_word _ _ _ 292864 (show (292864#32 : BitVec 32).toInt = 292864 by decide)
    (show (292863#32 : BitVec 32).toInt = 292864 - 1 by decide) (by omega) (by omega) (hs _)

/-- With every row number in range the first take is the plain gather of the wrapped rows. -/
theorem take1_eq (x : FVec F S292864x256 .f32) (s : IVec S281600 32)
    (hs : ∀ e : S281600.Idx, -292864 ≤ (s e).toInt ∧ (s e).toInt < 292864) :
    take1 x s = Host.gather gather_S292864x256_S281600x1_S281600x256_1_0_n_n_0_1_1256 x (starts1 s) := by
  funext i
  unfold take1
  rw [select_apply, broadcastInDim_ones _ _ _ (reduce_andi_ones _ (constantI S_ 1 1#1) _ _ (fun _ => rfl) (mask1_ones s hs)), select_one]

/-- The start rows of the second gather: a negative row number wrapped by adding 11264, as a column. -/
def starts2 (s : IVec S10240 32) : IVec S10240x1 32 :=
  broadcastInDim S10240x1 ![0] bcast_S10240_S10240x1_0
    (select (cmpi .slt s (broadcastInDim S10240 ![] bcast_S_S10240 (constantI S_ 32 0#32)))
      (addi s (broadcastInDim S10240 ![] bcast_S_S10240 (constantI S_ 32 11264#32))) s)

/-- The second take as the kernel's host code computes it. -/
def take2 (h : FVec F S11264x256 .f32) (s : IVec S10240 32) : FVec F S10240x256 .f32 :=
  select
    (broadcastInDim S10240x256 ![0] bcast_S10240_S10240x256_0
      (Host.reduce IntOp.andi
        (andi (cmpi .sge (starts2 s) (broadcastInDim S10240x1 ![] bcast_S_S10240x1 (constantI S_ 32 0#32)))
          (cmpi .sle (starts2 s)
            (broadcastInDim S10240x1 ![0, 1] bcast_S1x1_S10240x1_0_1 (broadcastInDim S1x1 ![1] bcast_S1_S1x1_1 (constantI S1 32 11263#32)))))
        (constantI S_ 1 1#1) reducesTo_S10240x1_S10240_d1 h_S_))
    (Host.gather gather_S11264x256_S10240x1_S10240x256_1_0_n_n_0_1_1256 h (starts2 s))
    (broadcastInDim S10240x256 ![] bcast_S_S10240x256 (constant S_ .f32 0x7FC00000#32))

/-- With every row number in range, both range tests of the second take hold at every entry of the column of wrapped
    row numbers. -/
theorem mask2_ones (s : IVec S10240 32)
    (hs : ∀ e : S10240.Idx, -11264 ≤ (s e).toInt ∧ (s e).toInt < 11264) (i : S10240x1.Idx) :
    andi (cmpi .sge (starts2 s) (broadcastInDim S10240x1 ![] bcast_S_S10240x1 (constantI S_ 32 0#32)))
      (cmpi .sle (starts2 s)
        (broadcastInDim S10240x1 ![0, 1] bcast_S1x1_S10240x1_0_1 (broadcastInDim S1x1 ![1] bcast_S1_S1x1_1 (constantI S1 32 11263#32)))) i
      = 1#1 :=
  wrap_word _ _ _ 11264 (show (11264#32 : BitVec 32).toInt = 11264 by decide)
    (show (11263#32 : BitVec 32).toInt = 11264 - 1 by decide) (by omega) (by omega) (hs _)

/-- With every row number in range the second take is the plain gather of the wrapped rows. -/
theorem take2_eq (h : FVec F S11264x256 .f32) (s : IVec S10240 32)
    (hs : ∀ e : S10240.Idx, -11264 ≤ (s e).toInt ∧ (s e).toInt < 11264) :
    take2 h s = Host.gather gather_S11264x256_S10240x1_S10240x256_1_0_n_n_0_1_1256 h (starts2 s) := by
  funext i
  unfold take2
  rw [select_apply, broadcastInDim_ones _ _ _ (reduce_andi_ones _ (constantI S_ 1 1#1) _ _ (fun _ => rfl) (mask2_ones s hs)), select_one]

end Cert.KernelIdeal.Hand

end
-- ==== Proof.KStages.lean ====
/-
  The kernel program's host stages, named. Around its two kernels the program takes source rows (with a fill value
  where a row number is outside the table), sums them into their destination rows and divides by the number of rows
  summed there (at least one), cuts the leading rows of a table, and turns a bias vector into a one-row array. With
  these the program's result is the output layer of the second layer's stages of the hidden features, which are the
  hidden layer of the first layer's stages of the arguments.
-/
import proofs.«428940_j40097814676057_1_alg».proof.Proof.Spec
import proofs.«428940_j40097814676057_1_alg».proof.Proof.TakeFill

noncomputable section

open Idealize.ShloMosaic Idealize.ShloMosaic.ValueIdx

namespace Cert.KernelIdeal.Hand

open Cert.KernelIdeal Cert.KernelIdeal.Gen

variable {F : FTy → Type} [FloatOps F]

/-! ## The host stages, as the kernel program spells them -/

/-- The gathered rows summed into their destination rows, divided by the number of rows summed there (at least one). -/
def mean1 (g : FVec F S281600x256 .f32) (d : IVec S281600 32) : FVec F S11264x256 .f32 :=
  Host.divf
    (Host.scatterAdd scatter_S11264x256_S281600x1_S281600x256_1_0_0_1
      (broadcastInDim S11264x256 ![] bcast_S_S11264x256 (constant S_ .f32 0x00000000#32))
      (broadcastInDim S281600x1 ![0] bcast_S281600_S281600x1_0 d) g)
    (broadcastInDim S11264x256 ![0, 1] bcast_S11264x1_S11264x256_0_1
      (broadcastInDim S11264x1 ![0] bcast_S11264_S11264x1_0
        (maximumf
          (Host.scatterAdd scatter_S11264_S281600x1_S281600_n_0_0_1
            (broadcastInDim S11264 ![] bcast_S_S11264 (constant S_ .f32 0x00000000#32))
            (broadcastInDim S281600x1 ![0] bcast_S281600_S281600x1_0 d)
            (broadcastInDim S281600 ![] bcast_S_S281600 (constant S_ .f32 0x3F800000#32)))
          (broadcastInDim S11264 ![] bcast_S_S11264 (constant S_ .f32 0x3F800000#32)))))

/-- The leading 11264 rows. -/
def top1 (x : FVec F S292864x256 .f32) : FVec F S11264x256 .f32 :=
  extractStridedSlice S11264x256 ![0, 0] x slices_S292864x256_S11264x256_0_0

/-- The first bias as a one-row array. -/
def brow1 (b : FVec F S256 .f32) : FVec F S1x256 .f32 := shapeCast S1x256 b shapeCasts_S256_S1x256

def mean2 (g : FVec F S10240x256 .f32) (d : IVec S10240 32) : FVec F S1024x256 .f32 :=
  Host.divf
    (Host.scatterAdd scatter_S1024x256_S10240x1_S10240x256_1_0_0_1
      (broadcastInDim S1024x256 ![] bcast_S_S1024x256 (constant S_ .f32 0x00000000#32))
      (broadcastInDim S10240x1 ![0] bcast_S10240_S10240x1_0 d) g)
    (broadcastInDim S1024x256 ![0, 1] bcast_S1024x1_S1024x256_0_1
      (broadcastInDim S1024x1 ![0] bcast_S1024_S1024x1_0
        (maximumf
          (Host.scatterAdd scatter_S1024_S10240x1_S10240_n_0_0_1
            (broadcastInDim S1024 ![] bcast_S_S1024 (constant S_ .f32 0x00000000#32))
            (broadcastInDim S10240x1 ![0] bcast_S10240_S10240x1_0 d)
            (broadcastInDim S10240 ![] bcast_S_S10240 (constant S_ .f32 0x3F800000#32)))
          (broadcastInDim S1024 ![] bcast_S_S1024 (constant S_ .f32 0x3F800000#32)))))

/-- The leading 1024 rows. -/
def top2 (h : FVec F S11264x256 .f32) : FVec F S1024x256 .f32 :=
  extractStridedSlice S1024x256 ![0, 0] h slices_S11264x256_S1024x256_0_0

/-- The second bias as a one-row array. -/
def brow2 (b : FVec F S47 .f32) : FVec F S1x47 .f32 := shapeCast S1x47 b shapeCasts_S47_S1x47

/-! ## The program's result in stages, over the extended reals -/

/-- The hidden features: the hidden layer of the first layer's stages of the arguments. -/
def hidK (x : FVec Ideal S292864x256 .f32) (s1 d1 : IVec S281600 32) (w5 w6 : FVec Ideal S256x256 .f32) (b1 : FVec Ideal S256 .f32) :
    Sage.Mat 11264 256 :=
  Sage.hidden (top1 (F := Ideal) x) (mean1 (F := Ideal) (take1 (F := Ideal) x s1) d1) w5 w6 (brow1 (F := Ideal) b1)

/-- The result: the output layer of the second layer's stages of the hidden features. -/
def resK (x : FVec Ideal S292864x256 .f32) (s1 d1 : IVec S281600 32) (s2 d2 : IVec S10240 32) (w5 w6 : FVec Ideal S256x256 .f32)
    (b1 : FVec Ideal S256 .f32) (w8 w9 : FVec Ideal S256x47 .f32) (b2 : FVec Ideal S47 .f32) : Sage.Mat 1024 47 :=
  Sage.output (top2 (F := Ideal) (hidK x s1 d1 w5 w6 b1)) (mean2 (F := Ideal) (take2 (F := Ideal) (hidK x s1 d1 w5 w6 b1) s2) d2) w8 w9
    (brow2 (F := Ideal) b2)

end Cert.KernelIdeal.Hand

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.Region0.lean ====
/-
  The first layer's kernel, read as a value. The kernel runs over eleven blocks of 1024 rows; at each block it
  multiplies the block of destination features and the block of neighbour means by the two whole weight matrices,
  adds the products and the bias row, clips at zero and stores the block. Since the eleven blocks tile the
  11264 rows, the array the region leaves is the hidden layer of the arrays the region found, entry by entry.
-/
import proofs.«428940_j40097814676057_1_alg».proof.Proof.Gen.KernelIdeal.Frame
import proofs.«428940_j40097814676057_1_alg».proof.Proof.Spec
import proofs.«428940_j40097814676057_1_alg».proof.Proof.LibDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

namespace HiddenLayer

/-- The bias row spread over the rows, read at an entry: the row's entry in that column. -/
theorem biasRows_entry (b : Vec Ideal S1x256 .f32) (p : Fin 1024) (q : Fin 256) :
    broadcastTo S1024x256 b broadcasts_S1x256_S1024x256 (ix2 p q) = b (ix2 0 q) :=
  broadcastTo_apply b broadcasts_S1x256_S1024x256 (ix2 p q) (ix2 0 q) fun a => by
    match a with
    | ⟨0, _⟩ => rfl
    | ⟨1, _⟩ => rfl

/-- One block's product with a whole weight matrix into the zero accumulator, read at an entry. -/
theorem blockProduct_entry (l : FVec Ideal S1024x256 .bf16) (r : FVec Ideal S256x256 .bf16) (p : Fin 1024) (q : Fin 256) :
    matmul dot_S1024x256_S256x256_S1024x256_1_0_0_1_n_n none l r (constant S1024x256 .f32 0x00000000#32) (ix2 p q)
      = ∑ k : Fin 256, l (ix2 p k) * r (ix2 k q) :=
  Cert.LibDot.matmul_zero_apply (M := 1024) (K := 256) (N := 256) dot_S1024x256_S256x256_S1024x256_1_0_0_1_n_n
    rfl rfl rfl rfl rfl rfl none l r p q

/-- What the body stores, read at row `p` and column `q` of the block: the two products' entries added, the bias
    entry added, the result clipped at zero from below. -/
theorem stored_entry (x0 x1 : Vec Ideal S1024x256 .f32) (x2 x3 : Vec Ideal S256x256 .f32) (x4 : Vec Ideal S1x256 .f32)
    (p : Fin 1024) (q : Fin 256) :
    (k0_pay1 (F := Ideal) x0 x1 x2 x3 x4) (ix2 p q)
      = max ((∑ k : Fin 256, x0 (ix2 p k) * x2 (ix2 k q) + ∑ k : Fin 256, x1 (ix2 p k) * x3 (ix2 k q)) + x4 (ix2 0 q)) 0 := by
  unfold k0_pay1
  rw [shapeCast_self, shapeCast_self, shapeCast_self]
  rw [maximumf_apply, addf_apply, addf_apply, blockProduct_entry, blockProduct_entry, biasRows_entry, broadcast_apply]
  show max (∑ k : Fin 256, x0 (ix2 p k) * x2 (ix2 k q) + ∑ k : Fin 256, x1 (ix2 p k) * x3 (ix2 k q) + x4 (ix2 0 q))
      (Ideal.ofBits .f32 0x00000000#32) = _
  rw [Ideal.ofBits_zero_f32]

/-- The stored block against the hidden layer, entry by entry: if the two feature blocks are rows
    `1024 n + p` of their arrays and the other three blocks are the whole weight matrices and bias row, the stored
    entry at `j` is the hidden layer's entry at row `1024 n + j₀`, column `j₁`. -/
theorem stored_is_hidden (A0 A1 : S11264x256.Idx → EReal) (W0 W1 : S256x256.Idx → EReal) (B : S1x256.Idx → EReal)
    (x0 x1 : Vec Ideal S1024x256 .f32) (x2 x3 : Vec Ideal S256x256 .f32) (x4 : Vec Ideal S1x256 .f32)
    (n : Nat) (hn : n < 11)
    (h0 : ∀ (p : Fin 1024) (k : Fin 256), x0 (ix2 p k) = A0 (ix2 ⟨n * 1024 + p.val, by omega⟩ k))
    (h1 : ∀ (p : Fin 1024) (k : Fin 256), x1 (ix2 p k) = A1 (ix2 ⟨n * 1024 + p.val, by omega⟩ k))
    (h2 : x2 = W0) (h3 : x3 = W1) (h4 : x4 = B)
    (j : S1024x256.Idx) (i : S11264x256.Idx) (hi0 : (i 0).val = n * 1024 + (j 0).val) (hi1 : (i 1).val = (j 1).val) :
    (k0_pay1 (F := Ideal) x0 x1 x2 x3 x4) j = Sage.hidden A0 A1 W0 W1 B i := by
  subst h2 h3 h4
  obtain ⟨p, q, rfl⟩ : ∃ (p : Fin 1024) (q : Fin 256), j = ix2 p q := ⟨j 0, j 1, eq_ix2 j⟩
  obtain ⟨a, b, rfl⟩ : ∃ (a : Fin 11264) (b : Fin 256), i = ix2 a b := ⟨i 0, i 1, eq_ix2 i⟩
  have ha : a = ⟨n * 1024 + p.val, by omega⟩ := Fin.ext hi0
  have hb : b = q := Fin.ext hi1
  rw [ha, hb]
  rw [stored_entry, Sage.hidden_ix2]
  unfold Sage.entry
  simp only [h0, h1]

/-- The zero offsets of a whole-buffer access, as a constant function. -/
theorem hz : (![0, 0] : Fin 2 → Nat) = fun _ => 0 := funext fun a => by fin_cases a <;> rfl

/-- The index maps, decided once over the eleven grid points: the two feature windows and the output window sit at
    block row `t`, block column 0; the weight and bias windows stay at block (0, 0). -/
theorem blockIndex_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The grid has eleven points. -/
theorem point_lt (t : Fin cfg0.N) : t.val < 11 := by
  have h := t.isLt
  have hN : cfg0.N = 11 := N_0
  omega

end HiddenLayer

variable (V : (c : Dev nD) → (b : Ref sig .tc) → Buf (Elt Ideal) ((c : Thread nD τ).loc b))

namespace HiddenLayer

/-- The destination-feature block at point `t` is rows `1024 t … 1024 t + 1023` of the array. -/
theorem destBlock_entry (c : Dev nD) (t : Fin cfg0.N) (p : Fin 1024) (k : Fin 256) :
    (iblk0 V c 0 t : Vec Ideal S1024x256 .f32) (ix2 p k)
      = (V c main_v13 : S11264x256.Idx → EReal) (ix2 ⟨t.val * 1024 + p.val, by have := point_lt t; omega⟩ k) := by
  obtain ⟨e0, e1, -⟩ := blockIndex_facts t
  show (V c main_v13 : S11264x256.Idx → EReal) (((cfg0.win 0).blk t).view.emb (ix2 p k)) = _
  refine congrArg _ (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 256 + 1 * k.val = k.val; rw [e1]; omega

/-- The neighbour-mean block at point `t` is the same rows of its array. -/
theorem meanBlock_entry (c : Dev nD) (t : Fin cfg0.N) (p : Fin 1024) (k : Fin 256) :
    (iblk0 V c 1 t : Vec Ideal S1024x256 .f32) (ix2 p k)
      = (V c main_v12 : S11264x256.Idx → EReal) (ix2 ⟨t.val * 1024 + p.val, by have := point_lt t; omega⟩ k) := by
  obtain ⟨-, -, e0, e1, -⟩ := blockIndex_facts t
  show (V c main_v12 : S11264x256.Idx → EReal) (((cfg0.win 1).blk t).view.emb (ix2 p k)) = _
  refine congrArg _ (funext fun a => Fin.ext ?_)
  match a with
  | ⟨0, _⟩ => show win0_1.index t (0 : Fin 2) * 1024 + 1 * p.val = t.val * 1024 + p.val; rw [e0]; omega
  | ⟨1, _⟩ => show win0_1.index t (1 : Fin 2) * 256 + 1 * k.val = k.val; rw [e1]; omega

/-- Each weight window's one block is the whole matrix, at every point. -/
theorem destWeights_block (c : Dev nD) (t : Fin cfg0.N) :
    (iblk0 V c 2 t : Vec Ideal S256x256 .f32) = (V c main_arg5 : S256x256.Idx → EReal) := by
  obtain ⟨-, -, -, -, e0, e1, -⟩ := blockIndex_facts t
  funext y
  show (V c main_arg5 : S256x256.Idx → EReal) (((cfg0.win 2).blk t).view.emb y) = _
  refine congrArg _ (funext fun a => Fin.ext ?_)
  match a with
  | ⟨0, _⟩ => show win0_2.index t (0 : Fin 2) * 256 + 1 * (y 0).val = (y 0).val; rw [e0]; omega
  | ⟨1, _⟩ => show win0_2.index t (1 : Fin 2) * 256 + 1 * (y 1).val = (y 1).val; rw [e1]; omega

/-- The same for the neighbour means' weight matrix. -/
theorem meanWeights_block (c : Dev nD) (t : Fin cfg0.N) :
    (iblk0 V c 3 t : Vec Ideal S256x256 .f32) = (V c main_arg6 : S256x256.Idx → EReal) := by
  obtain ⟨-, -, -, -, -, -, e0, e1, -⟩ := blockIndex_facts t
  funext y
  show (V c main_arg6 : S256x256.Idx → EReal) (((cfg0.win 3).blk t).view.emb y) = _
  refine congrArg _ (funext fun a => Fin.ext ?_)
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

/-- The bias window's one block is the whole bias row, at every point. -/
theorem bias_block (c : Dev nD) (t : Fin cfg0.N) :
    (iblk0 V c 4 t : Vec Ideal S1x256 .f32) = (V c main_v14 : S1x256.Idx → EReal) := by
  obtain ⟨-, -, -, -, -, -, -, -, e0, e1, -⟩ := blockIndex_facts t
  funext y
  show (V c main_v14 : S1x256.Idx → EReal) (((cfg0.win 4).blk t).view.emb y) = _
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- What point `t` writes back is block `t` of the hidden layer of the arrays the region found. -/
theorem written_block (c : Dev nD) (t : Fin cfg0.N) :
    (dat0 (F := Ideal) V c).flushed 5 t
      = ((cfg0.win 5).blk t).view.read (Elt Ideal)
          (Sage.hidden (V c main_v13) (V c main_v12) (V c main_arg5) (V c main_arg6) (V c main_v14)) := by
  show (cfg0.win 5).cut (grid0.coords t) ((dat0 V c).after 5 t) = _
  rw [after0_5]
  unfold out0_5
  rw [View.canon_unit_zero hz]
  simp only [View.ld_unit_zero (S := S1024x256) hz, View.ld_unit_zero (S := S256x256) hz, View.ld_unit_zero (S := S1x256) hz]
  obtain ⟨-, -, -, -, -, -, -, -, -, -, e0, e1⟩ := blockIndex_facts t
  funext j
  refine stored_is_hidden (V c main_v13) (V c main_v12) (V c main_arg5) (V c main_arg6) (V c main_v14)
    (iblk0 V c 0 t) (iblk0 V c 1 t) (iblk0 V c 2 t) (iblk0 V c 3 t) (iblk0 V c 4 t) t.val (point_lt t)
    (destBlock_entry V c t) (meanBlock_entry V c t) (destWeights_block V c t) (meanWeights_block V c t) (bias_block V c t)
    ((cfg0.win 5).xinj (grid0.coords t) j) (((cfg0.win 5).blk t).view.emb j) ?_ ?_
  · show win0_5.index t (0 : Fin 2) * 1024 + 1 * (j 0).val = t.val * 1024 + (j 0).val
    rw [e0]; omega
  · show win0_5.index t (1 : Fin 2) * 256 + 1 * (j 1).val = (j 1).val
    rw [e1]; omega

/-- An index of the output array lies in point `t`'s block iff each coordinate is in the block's range on its axis. -/
theorem mem_block (t : Fin cfg0.N) (i : S11264x256.Idx) :
    i ∈ ((cfg0.win 5).blk t).view.set
      ↔ ∀ a : Fin 2, win0_5.index t a * S1024x256.size a ≤ (i a).val
          ∧ (i a).val < win0_5.index t a * S1024x256.size a + S1024x256.size a := by
  show i ∈ ((View.whole main_v15).slice (win0_5.rect t)).set ↔ _
  rw [View.set_slice_whole, Rect.mem_set_unit]
  exact Iff.rfl

/-- The eleven blocks of 1024 rows tile the 11264 rows: row `r` is in the block of point `r / 1024`. -/
theorem rows_covered (i : S11264x256.Idx) :
    ∃ t : Fin cfg0.N, (cfg0.win 5).flush t = true ∧ i ∈ ((cfg0.win 5).blk t).view.set := by
  have hi0 : (i 0).val < 11264 := idx2_lt0 i
  have hi1 : (i 1).val < 256 := idx2_lt1 i
  have hN : cfg0.N = 11 := N_0
  obtain ⟨t, ht⟩ : ∃ t : Fin cfg0.N, t.val = (i 0).val / 1024 := ⟨⟨(i 0).val / 1024, by omega⟩, rfl⟩
  obtain ⟨-, -, -, -, -, -, -, -, -, -, e0, e1⟩ := blockIndex_facts t
  refine ⟨t, flush0_5 t, ?_⟩
  rw [mem_block]
  intro a
  match a with
  | ⟨0, _⟩ =>
    show win0_5.index t (0 : Fin 2) * 1024 ≤ (i 0).val ∧ (i 0).val < win0_5.index t (0 : Fin 2) * 1024 + 1024
    rw [e0]; omega
  | ⟨1, _⟩ =>
    show win0_5.index t (1 : Fin 2) * 256 ≤ (i 1).val ∧ (i 1).val < win0_5.index t (1 : Fin 2) * 256 + 256
    rw [e1]; omega

end HiddenLayer

/-- What the first region leaves in its output array: the hidden layer of the five arrays it found. -/
theorem region0_value (c : Dev nD) :
    (dat0 (F := Ideal) V c).arrAt 5 cfg0.N
      = Sage.hidden (V c main_v13) (V c main_v12) (V c main_arg5) (V c main_arg6) (V c main_v14) :=
  (dat0 (F := Ideal) V c).arrAt_eq_of_cover 5
    (Sage.hidden (V c main_v13) (V c main_v12) (V c main_arg5) (V c main_arg6) (V c main_v14))
    (fun t _ => HiddenLayer.written_block V c t) HiddenLayer.rows_covered

end Cert.KernelIdeal.Hand

end
-- ==== Proof.Region1.lean ====
/-
  The second layer's kernel, read as a value. The kernel runs once, over the one block that is the whole 1024 × 47 result: it multiplies the
  destination features and the neighbour means by the two whole weight matrices, adds the products and the bias row
  and stores the result. So the array the region leaves is the output layer of the arrays the region found.
-/
import proofs.«428940_j40097814676057_1_alg».proof.Proof.Gen.KernelIdeal.Frame
import proofs.«428940_j40097814676057_1_alg».proof.Proof.Spec
import proofs.«428940_j40097814676057_1_alg».proof.Proof.LibDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Hand

open Cert.KernelIdeal Cert.KernelIdeal.Gen

variable (V : (c : Dev nD) → (b : Ref sig .tc) → Buf (Elt Ideal) ((c : Thread nD τ).loc b))

/-! ## The body's result entry by entry, each block as its whole array, and the one block covering the result -/
namespace OutputLayer

/-- The body's result at row `p` and column `q`: the two products' entries added, then the bias at `q`. -/
theorem pay_apply (x0 x1 : Vec Ideal S1024x256 .f32) (x2 x3 : Vec Ideal S256x47 .f32) (x4 : Vec Ideal S1x47 .f32)
    (p : Fin 1024) (q : Fin 47) :
    k1_pay1 (F := Ideal) x0 x1 x2 x3 x4 (ix2 p q)
      = (∑ k : Fin 256, x0 (ix2 p k) * x2 (ix2 k q) + ∑ k : Fin 256, x1 (ix2 p k) * x3 (ix2 k q)) + x4 (ix2 0 q) := by
  unfold k1_pay1
  rw [addf_apply, addf_apply,
    Cert.LibDot.matmul_zero_apply _ rfl rfl rfl rfl rfl rfl,
    Cert.LibDot.matmul_zero_apply _ rfl rfl rfl rfl rfl rfl,
    broadcastTo_1b_ab_apply, shapeCast_self, shapeCast_self, shapeCast_self]
  rfl

/-- So the body's result is the output layer of what it loaded. -/
theorem pay_eq_output (x0 x1 : Vec Ideal S1024x256 .f32) (x2 x3 : Vec Ideal S256x47 .f32) (x4 : Vec Ideal S1x47 .f32) :
    k1_pay1 (F := Ideal) x0 x1 x2 x3 x4 = Sage.output x0 x1 x2 x3 x4 :=
  Sage.ext_ix2 fun p q => by rw [pay_apply, Sage.output_ix2]; rfl

theorem hz : (![0, 0] : Fin 2 → Nat) = fun _ => 0 := funext fun a => by fin_cases a <;> rfl

/-- The grid has one point, and at it every window's block index is zero on both axes. -/
theorem idx_zero : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The destination features' block is the whole array: block zero of full size starts at row and column zero. -/
theorem iblk_0 (c : Dev nD) (t : Fin cfg1.N) : iblk1 (F := Ideal) V c 0 t = V c main_v29 := by
  obtain ⟨a0, a1, b0, b1, c0, c1, d0, d1, e0, e1, -⟩ := idx_zero t
  unfold iblk1
  funext y
  rw [View.read_apply]
  show V c main_v29 (((cfg1.win 0).blk t).view.emb y) = V c main_v29 y
  congr 1
  funext a
  apply Fin.ext
  match a with
  | ⟨0, _⟩ => show win1_0.index t (0 : Fin 2) * 1024 + 1 * (y 0).val = (y 0).val; omega
  | ⟨1, _⟩ => show win1_0.index t (1 : Fin 2) * 256 + 1 * (y 1).val = (y 1).val; omega

/-- The neighbour means' block is the whole array. -/
theorem iblk_1 (c : Dev nD) (t : Fin cfg1.N) : iblk1 (F := Ideal) V c 1 t = V c main_v28 := by
  obtain ⟨a0, a1, b0, b1, c0, c1, d0, d1, e0, e1, -⟩ := idx_zero t
  unfold iblk1
  funext y
  rw [View.read_apply]
  show V c main_v28 (((cfg1.win 1).blk t).view.emb y) = V c main_v28 y
  congr 1
  funext a
  apply Fin.ext
  match a with
  | ⟨0, _⟩ => show win1_1.index t (0 : Fin 2) * 1024 + 1 * (y 0).val = (y 0).val; omega
  | ⟨1, _⟩ => show win1_1.index t (1 : Fin 2) * 256 + 1 * (y 1).val = (y 1).val; omega

/-- The first weight matrix's block is the whole matrix. -/
theorem iblk_2 (c : Dev nD) (t : Fin cfg1.N) : iblk1 (F := Ideal) V c 2 t = V c main_arg8 := by
  obtain ⟨a0, a1, b0, b1, c0, c1, d0, d1, e0, e1, -⟩ := idx_zero t
  unfold iblk1
  funext y
  rw [View.read_apply]
  show V c main_arg8 (((cfg1.win 2).blk t).view.emb y) = V c main_arg8 y
  congr 1
  funext a
  apply Fin.ext
  match a with
  | ⟨0, _⟩ => show win1_2.index t (0 : Fin 2) * 256 + 1 * (y 0).val = (y 0).val; omega
  | ⟨1, _⟩ => show win1_2.index t (1 : Fin 2) * 47 + 1 * (y 1).val = (y 1).val; omega

/-- The second weight matrix's block is the whole matrix. -/
theorem iblk_3 (c : Dev nD) (t : Fin cfg1.N) : iblk1 (F := Ideal) V c 3 t = V c main_arg9 := by
  obtain ⟨a0, a1, b0, b1, c0, c1, d0, d1, e0, e1, -⟩ := idx_zero t
  unfold iblk1
  funext y
  rw [View.read_apply]
  show V c main_arg9 (((cfg1.win 3).blk t).view.emb y) = V c main_arg9 y
  congr 1
  funext a
  apply Fin.ext
  match a with
  | ⟨0, _⟩ => show win1_3.index t (0 : Fin 2) * 256 + 1 * (y 0).val = (y 0).val; omega
  | ⟨1, _⟩ => show win1_3.index t (1 : Fin 2) * 47 + 1 * (y 1).val = (y 1).val; omega

/-- The bias row's block is the whole row. -/
theorem iblk_4 (c : Dev nD) (t : Fin cfg1.N) : iblk1 (F := Ideal) V c 4 t = V c main_v30 := by
  obtain ⟨a0, a1, b0, b1, c0, c1, d0, d1, e0, e1, -⟩ := idx_zero t
  unfold iblk1
  funext y
  rw [View.read_apply]
  show V c main_v30 (((cfg1.win 4).blk t).view.emb y) = V c main_v30 y
  congr 1
  funext a
  apply Fin.ext
  match a with
  | ⟨0, _⟩ => show win1_4.index t (0 : Fin 2) * 1 + 1 * (y 0).val = (y 0).val; omega
  | ⟨1, _⟩ => show win1_4.index t (1 : Fin 2) * 47 + 1 * (y 1).val = (y 1).val; omega

/-- What the one point writes back is the output layer of the five arrays, read through the point's block (which is
    the whole result). -/
theorem flushed_eq (c : Dev nD) (t : Fin cfg1.N) :
    (dat1 (F := Ideal) V c).flushed 5 t
      = ((cfg1.win 5).blk t).view.read (Elt Ideal)
          (Sage.output (V c main_v29) (V c main_v28) (V c main_arg8) (V c main_arg9) (V c main_v30)) := by
  show (cfg1.win 5).cut (grid1.coords t) ((dat1 (F := Ideal) V c).after 5 t) = _
  rw [after1_5]
  unfold out1_5
  rw [View.canon_unit_zero hz]
  simp only [View.ld_unit_zero (S := S1024x256) hz, View.ld_unit_zero (S := S256x47) hz, View.ld_unit_zero (S := S1x47) hz]
  rw [iblk_0, iblk_1, iblk_2, iblk_3, iblk_4, pay_eq_output]
  obtain ⟨-, -, -, -, -, -, -, -, -, -, e0, e1⟩ := idx_zero t
  funext y
  show Sage.output (V c main_v29) (V c main_v28) (V c main_arg8) (V c main_arg9) (V c main_v30) y
    = Sage.output (V c main_v29) (V c main_v28) (V c main_arg8) (V c main_arg9) (V c main_v30) (((cfg1.win 5).blk t).view.emb y)
  congr 1
  funext a
  apply Fin.ext
  match a with
  | ⟨0, _⟩ => show (y 0).val = win1_5.index t (0 : Fin 2) * 1024 + 1 * (y 0).val; omega
  | ⟨1, _⟩ => show (y 1).val = win1_5.index t (1 : Fin 2) * 47 + 1 * (y 1).val; omega

/-- An index of the result is in a point's block iff each coordinate is in the block's range on its axis. -/
theorem mem_blk (t : Fin cfg1.N) (i : S1024x47.Idx) :
    i ∈ ((cfg1.win 5).blk t).view.set ↔ ∀ a : Fin 2, win1_5.index t a * S1024x47.size a ≤ (i a).val ∧ (i a).val < win1_5.index t a * S1024x47.size a + S1024x47.size a := by
  show i ∈ ((View.whole main_v31).slice (win1_5.rect t)).set ↔ _
  rw [View.set_slice_whole, Rect.mem_set_unit]
  exact Iff.rfl

/-- The one point's block holds every index of the result. -/
theorem covered (i : S1024x47.Idx) :
    ∃ t : Fin cfg1.N, (cfg1.win 5).flush t = true ∧ i ∈ ((cfg1.win 5).blk t).view.set := by
  refine ⟨t1_0, flush1_5 t1_0, ?_⟩
  rw [mem_blk]
  obtain ⟨-, -, -, -, -, -, -, -, -, -, e0, e1⟩ := idx_zero t1_0
  have h0 : (i 0).val < 1024 := (i 0).isLt
  have h1 : (i 1).val < 47 := (i 1).isLt
  intro a
  match a with
  | ⟨0, _⟩ => show win1_5.index t1_0 (0 : Fin 2) * 1024 ≤ (i 0).val ∧ (i 0).val < win1_5.index t1_0 (0 : Fin 2) * 1024 + 1024; omega
  | ⟨1, _⟩ => show win1_5.index t1_0 (1 : Fin 2) * 47 ≤ (i 1).val ∧ (i 1).val < win1_5.index t1_0 (1 : Fin 2) * 47 + 47; omega

end OutputLayer

/-- What the second region leaves in its output array: the output layer of the five arrays it found. -/
theorem region1_value (c : Dev nD) :
    (dat1 (F := Ideal) V c).arrAt 5 cfg1.N
      = Sage.output (V c main_v29) (V c main_v28) (V c main_arg8) (V c main_arg9) (V c main_v30) := by
  exact (dat1 (F := Ideal) V c).arrAt_eq_of_cover 5 _ (fun t _ => OutputLayer.flushed_eq V c t) OutputLayer.covered

end Cert.KernelIdeal.Hand

end
-- ==== Proof.KernelValue.lean ====
/-
  The idealized kernel program's result, read back from the run. The program is: host operations that take the
  source rows, average them per destination and cut the destinations' own rows; the first layer's kernel; the same
  host operations on the hidden features; the second layer's kernel. Read from the end: the result buffer holds what
  the second kernel leaves, the output layer of its five input arrays; those arrays are host operations of the hidden
  features and of the arguments; the hidden features are what the first kernel leaves, the hidden layer of its five
  input arrays; and those are host operations of the arguments.
-/
import proofs.«428940_j40097814676057_1_alg».proof.Proof.Gen.KernelIdeal.Frame
import proofs.«428940_j40097814676057_1_alg».proof.Proof.Spec
import proofs.«428940_j40097814676057_1_alg».proof.Proof.TakeFill
import proofs.«428940_j40097814676057_1_alg».proof.Proof.KStages
import proofs.«428940_j40097814676057_1_alg».proof.Proof.Region0
import proofs.«428940_j40097814676057_1_alg».proof.Proof.Region1
import Idealize.ShloMosaic.Lib.StableHlo.Run
import Idealize.ShloMosaic.PureOps.Ideal
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-! ## Before the first kernel -/

theorem W1_v0 (c : Dev nD) :
    W1 m ρ c (Proc.devRef .tc main_v0) = take1 (F := Ideal) (m ((c : Thread nD τ).loc main_arg0)) (m ((c : Thread nD τ).loc main_arg1)) := by
  dsimp only [W1]
  after_results_simp
  simp only [StableHlo.TRef.toBuf, StableHlo.TRef.ofBuf, cast_eq]
  rfl

theorem W2_v12 (c : Dev nD) :
    W2 m ρ c (Proc.devRef .tc main_v12) = mean1 (F := Ideal) (W1 m ρ c (Proc.devRef .tc main_v0)) (m ((c : Thread nD τ).loc main_arg2)) := by
  dsimp only [W2]
  after_results_simp
  rfl

theorem W2_v13 (c : Dev nD) : W2 m ρ c (Proc.devRef .tc main_v13) = top1 (F := Ideal) (m ((c : Thread nD τ).loc main_arg0)) := by
  dsimp only [W2, W1]
  after_results
  rfl

theorem W2_v14 (c : Dev nD) : W2 m ρ c (Proc.devRef .tc main_v14) = brow1 (F := Ideal) (m ((c : Thread nD τ).loc main_arg7)) := by
  dsimp only [W2, W1]
  after_results
  rfl

theorem W2_arg5 (c : Dev nD) : W2 m ρ c (Proc.devRef .tc main_arg5) = m ((c : Thread nD τ).loc main_arg5) := by
  dsimp only [W2, W1]
  after_results

theorem W2_arg6 (c : Dev nD) : W2 m ρ c (Proc.devRef .tc main_arg6) = m ((c : Thread nD τ).loc main_arg6) := by
  dsimp only [W2, W1]
  after_results

/-! ## The first kernel's result: the hidden features -/

/-- What the first kernel leaves in its output array is the hidden layer of the arrays it found. -/
theorem W3_v15 (c : Dev nD) :
    W3 m ρ c (Proc.devRef .tc main_v15)
      = Sage.hidden (W2 m ρ c (Proc.devRef .tc main_v13)) (W2 m ρ c (Proc.devRef .tc main_v12)) (W2 m ρ c (Proc.devRef .tc main_arg5))
          (W2 m ρ c (Proc.devRef .tc main_arg6)) (W2 m ρ c (Proc.devRef .tc main_v14)) :=
  (W3_arr m ρ c 5).trans (region0_value (V2 m ρ) c)

/-- The hidden features are the staged hidden features of the arguments. -/
theorem hid_eq (c : Dev nD) :
    W3 m ρ c (Proc.devRef .tc main_v15)
      = hidK (m ((c : Thread nD τ).loc main_arg0)) (m ((c : Thread nD τ).loc main_arg1)) (m ((c : Thread nD τ).loc main_arg2))
          (m ((c : Thread nD τ).loc main_arg5)) (m ((c : Thread nD τ).loc main_arg6)) (m ((c : Thread nD τ).loc main_arg7)) := by
  rw [W3_v15, W2_v13, W2_v12, W1_v0, W2_arg5, W2_arg6, W2_v14]
  rfl

/-! ## Between the kernels -/

theorem W3_arg3 (c : Dev nD) : W3 m ρ c (Proc.devRef .tc main_arg3) = m ((c : Thread nD τ).loc main_arg3) :=
  (W3_of_ne m ρ c main_arg3 (by decide)).trans (by dsimp only [W2, W1]; after_results)

theorem W3_arg4 (c : Dev nD) : W3 m ρ c (Proc.devRef .tc main_arg4) = m ((c : Thread nD τ).loc main_arg4) :=
  (W3_of_ne m ρ c main_arg4 (by decide)).trans (by dsimp only [W2, W1]; after_results)

theorem W3_arg8 (c : Dev nD) : W3 m ρ c (Proc.devRef .tc main_arg8) = m ((c : Thread nD τ).loc main_arg8) :=
  (W3_of_ne m ρ c main_arg8 (by decide)).trans (by dsimp only [W2, W1]; after_results)

theorem W3_arg9 (c : Dev nD) : W3 m ρ c (Proc.devRef .tc main_arg9) = m ((c : Thread nD τ).loc main_arg9) :=
  (W3_of_ne m ρ c main_arg9 (by decide)).trans (by dsimp only [W2, W1]; after_results)

theorem W3_arg10 (c : Dev nD) : W3 m ρ c (Proc.devRef .tc main_arg10) = m ((c : Thread nD τ).loc main_arg10) :=
  (W3_of_ne m ρ c main_arg10 (by decide)).trans (by dsimp only [W2, W1]; after_results)

theorem W4_v16 (c : Dev nD) :
    W4 m ρ c (Proc.devRef .tc main_v16) = take2 (F := Ideal) (W3 m ρ c (Proc.devRef .tc main_v15)) (W3 m ρ c (Proc.devRef .tc main_arg3)) := by
  dsimp only [W4]
  after_results_simp
  simp only [StableHlo.TRef.toBuf, StableHlo.TRef.ofBuf, cast_eq]
  rfl

theorem W5_v28 (c : Dev nD) :
    W5 m ρ c (Proc.devRef .tc main_v28)
      = mean2 (F := Ideal) (take2 (F := Ideal) (W3 m ρ c (Proc.devRef .tc main_v15)) (W3 m ρ c (Proc.devRef .tc main_arg3)))
          (W3 m ρ c (Proc.devRef .tc main_arg4)) := by
  dsimp only [W5, W4]
  after_results_simp
  simp only [StableHlo.TRef.toBuf, StableHlo.TRef.ofBuf, cast_eq]
  rfl

theorem W5_v29 (c : Dev nD) : W5 m ρ c (Proc.devRef .tc main_v29) = top2 (F := Ideal) (W3 m ρ c (Proc.devRef .tc main_v15)) := by
  dsimp only [W5, W4]
  after_results
  rfl

theorem W5_v30 (c : Dev nD) : W5 m ρ c (Proc.devRef .tc main_v30) = brow2 (F := Ideal) (W3 m ρ c (Proc.devRef .tc main_arg10)) := by
  dsimp only [W5, W4]
  after_results
  rfl

theorem W5_arg8 (c : Dev nD) : W5 m ρ c (Proc.devRef .tc main_arg8) = W3 m ρ c (Proc.devRef .tc main_arg8) := by
  dsimp only [W5, W4]
  after_results

theorem W5_arg9 (c : Dev nD) : W5 m ρ c (Proc.devRef .tc main_arg9) = W3 m ρ c (Proc.devRef .tc main_arg9) := by
  dsimp only [W5, W4]
  after_results

/-! ## The second kernel's result -/

/-- What the second kernel leaves in its output array is the output layer of the arrays it found. -/
theorem W6_v31 (c : Dev nD) :
    W6 m ρ c (Proc.devRef .tc main_v31)
      = Sage.output (W5 m ρ c (Proc.devRef .tc main_v29)) (W5 m ρ c (Proc.devRef .tc main_v28)) (W5 m ρ c (Proc.devRef .tc main_arg8))
          (W5 m ρ c (Proc.devRef .tc main_arg9)) (W5 m ρ c (Proc.devRef .tc main_v30)) :=
  (W6_arr m ρ c 5).trans (region1_value (V5 m ρ) c)

/-- The result buffer holds the staged result of the arguments. -/
theorem out_eq (c : Dev nD) :
    W6 m ρ c (Proc.devRef .tc main_v31)
      = resK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  rw [W6_v31, W5_v29, W5_v28, W5_arg8, W5_arg9, W5_v30, W3_arg3, W3_arg4, W3_arg8, W3_arg9, W3_arg10, hid_eq]
  rfl

end Cert.KernelIdeal.Hand

end
-- ==== Proof.RefStages.lean ====
/-
  The reference program read in stages. Each layer gathers rows of its input (a negative row number first wrapped
  by adding the number of rows), sums the gathered rows into their destination rows and divides by the number of
  rows summed there (at least one), takes the leading rows of the input as the destinations' own features, and
  applies the layer: two matrix products added, the bias added, and in the hidden layer a maximum with zero.
  The program's result is the second layer's stages applied to the first layer's (`res_eq`); and each layer's
  last stage is, entry by entry, the layer of `Cert.Sage` (`lin1_eq`, `lin2_eq`).
-/
import proofs.«428940_j40097814676057_1_alg».proof.Proof.Gen.ReferenceIdeal.Run
import proofs.«428940_j40097814676057_1_alg».proof.Proof.Spec
import proofs.«428940_j40097814676057_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.ReferenceIdeal.Hand

open Cert.ReferenceIdeal Cert.ReferenceIdeal.Gen

variable {F : FTy → Type} [FloatOps F]

/-! ## First layer -/

/-- The start rows of the first gather: a negative row number wrapped by adding 292864, as a column. -/
def starts1 (s : IVec S281600 32) : IVec S281600x1 32 :=
  broadcastInDim S281600x1 ![0] bcast_S281600_S281600x1_0
    (select (cmpi .slt s (broadcastInDim S281600 ![] bcast_S_S281600 (constantI S_ 32 0#32)))
      (addi s (broadcastInDim S281600 ![] bcast_S_S281600 (constantI S_ 32 292864#32))) s)

/-- The gathered source rows. -/
def gather1 (x : FVec F S292864x256 .f32) (s : IVec S281600 32) : FVec F S281600x256 .f32 :=
  Host.gather gather_S292864x256_S281600x1_S281600x256_1_0_n_n_0_1_1256 x (starts1 s)

/-- The gathered rows summed into their destination rows, divided by the number of rows summed there (at least one). -/
def mean1 (g : FVec F S281600x256 .f32) (d : IVec S281600 32) : FVec F S11264x256 .f32 :=
  Host.divf
    (Host.scatterAdd scatter_S11264x256_S281600x1_S281600x256_1_0_0_1
      (broadcastInDim S11264x256 ![] bcast_S_S11264x256 (constant S_ .f32 0x00000000#32))
      (broadcastInDim S281600x1 ![0] bcast_S281600_S281600x1_0 d) g)
    (broadcastInDim S11264x256 ![0, 1] bcast_S11264x1_S11264x256_0_1
      (broadcastInDim S11264x1 ![0] bcast_S11264_S11264x1_0
        (maximumf
          (Host.scatterAdd scatter_S11264_S281600x1_S281600_n_0_0_1
            (broadcastInDim S11264 ![] bcast_S_S11264 (constant S_ .f32 0x00000000#32))
            (broadcastInDim S281600x1 ![0] bcast_S281600_S281600x1_0 d)
            (broadcastInDim S281600 ![] bcast_S_S281600 (constant S_ .f32 0x3F800000#32)))
          (broadcastInDim S11264 ![] bcast_S_S11264 (constant S_ .f32 0x3F800000#32)))))

/-- The leading 11264 rows. -/
def top1 (x : FVec F S292864x256 .f32) : FVec F S11264x256 .f32 :=
  extractStridedSlice S11264x256 ![0, 0] x slices_S292864x256_S11264x256_0_0

/-- The hidden layer as the program computes it. -/
def lin1 (hs hn : FVec F S11264x256 .f32) (ws wn : FVec F S256x256 .f32) (b : FVec F S256 .f32) : FVec F S11264x256 .f32 :=
  maximumf
    (addf
      (addf (Host.dotGeneral dot_S11264x256_S256x256_S11264x256_1_0_0_1_n_n none hs ws)
        (Host.dotGeneral dot_S11264x256_S256x256_S11264x256_1_0_0_1_n_n none hn wn))
      (broadcastInDim S11264x256 ![0, 1] bcast_S1x256_S11264x256_0_1 (broadcastInDim S1x256 ![1] bcast_S256_S1x256_1 b)))
    (broadcastInDim S11264x256 ![] bcast_S_S11264x256 (constant S_ .f32 0x00000000#32))

/-! ## Second layer -/

/-- The start rows of the second gather: a negative row number wrapped by adding 11264, as a column. -/
def starts2 (s : IVec S10240 32) : IVec S10240x1 32 :=
  broadcastInDim S10240x1 ![0] bcast_S10240_S10240x1_0
    (select (cmpi .slt s (broadcastInDim S10240 ![] bcast_S_S10240 (constantI S_ 32 0#32)))
      (addi s (broadcastInDim S10240 ![] bcast_S_S10240 (constantI S_ 32 11264#32))) s)

def gather2 (h : FVec F S11264x256 .f32) (s : IVec S10240 32) : FVec F S10240x256 .f32 :=
  Host.gather gather_S11264x256_S10240x1_S10240x256_1_0_n_n_0_1_1256 h (starts2 s)

def mean2 (g : FVec F S10240x256 .f32) (d : IVec S10240 32) : FVec F S1024x256 .f32 :=
  Host.divf
    (Host.scatterAdd scatter_S1024x256_S10240x1_S10240x256_1_0_0_1
      (broadcastInDim S1024x256 ![] bcast_S_S1024x256 (constant S_ .f32 0x00000000#32))
      (broadcastInDim S10240x1 ![0] bcast_S10240_S10240x1_0 d) g)
    (broadcastInDim S1024x256 ![0, 1] bcast_S1024x1_S1024x256_0_1
      (broadcastInDim S1024x1 ![0] bcast_S1024_S1024x1_0
        (maximumf
          (Host.scatterAdd scatter_S1024_S10240x1_S10240_n_0_0_1
            (broadcastInDim S1024 ![] bcast_S_S1024 (constant S_ .f32 0x00000000#32))
            (broadcastInDim S10240x1 ![0] bcast_S10240_S10240x1_0 d)
            (broadcastInDim S10240 ![] bcast_S_S10240 (constant S_ .f32 0x3F800000#32)))
          (broadcastInDim S1024 ![] bcast_S_S1024 (constant S_ .f32 0x3F800000#32)))))

/-- The leading 1024 rows. -/
def top2 (h : FVec F S11264x256 .f32) : FVec F S1024x256 .f32 :=
  extractStridedSlice S1024x256 ![0, 0] h slices_S11264x256_S1024x256_0_0

/-- The output layer as the program computes it. -/
def lin2 (hs hn : FVec F S1024x256 .f32) (ws wn : FVec F S256x47 .f32) (b : FVec F S47 .f32) : FVec F S1024x47 .f32 :=
  addf
    (addf (Host.dotGeneral dot_S1024x256_S256x47_S1024x47_1_0_0_1_n_n none hs ws)
      (Host.dotGeneral dot_S1024x256_S256x47_S1024x47_1_0_0_1_n_n none hn wn))
    (broadcastInDim S1024x47 ![0, 1] bcast_S1x47_S1024x47_0_1 (broadcastInDim S1x47 ![1] bcast_S47_S1x47_1 b))

/-! ## The program's result in stages -/

/-- The hidden features: the first layer's stages applied to the arguments. -/
def hid (x : FVec F S292864x256 .f32) (s1 d1 : IVec S281600 32) (w5 w6 : FVec F S256x256 .f32) (b1 : FVec F S256 .f32) :
    FVec F S11264x256 .f32 :=
  lin1 (top1 x) (mean1 (gather1 x s1) d1) w5 w6 b1

/-- The result: the second layer's stages applied to the hidden features. -/
def res (x : FVec F S292864x256 .f32) (s1 d1 : IVec S281600 32) (s2 d2 : IVec S10240 32) (w5 w6 : FVec F S256x256 .f32)
    (b1 : FVec F S256 .f32) (w8 w9 : FVec F S256x47 .f32) (b2 : FVec F S47 .f32) : FVec F S1024x47 .f32 :=
  lin2 (top2 (hid x s1 d1 w5 w6 b1)) (mean2 (gather2 (hid x s1 d1 w5 w6 b1) s2) d2) w8 w9 b2

set_option maxRecDepth 8192 in
/-- The reference run's result term is the staged result of the arguments. -/
theorem res_eq (m : (ℓ : Loc nD τ sig) → Buf (Elt F) ℓ) (c : Dev nD) :
    Cert.ReferenceIdeal.Value.res_out0 (F := F) m c
      = res (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold res hid lin2 lin1 top2 top1 mean2 mean1 gather2 gather1 starts2 starts1
  unfold Cert.ReferenceIdeal.Value.res_out0 Cert.ReferenceIdeal.Value.res_main_v52
  rfl

/-! ## The layers' last stages, entry by entry -/

/-- The zero constant spread over the hidden layer's shape is zero at every index. -/
theorem zeros1_apply (i : S11264x256.Idx) :
    broadcastInDim S11264x256 ![] bcast_S_S11264x256 (constant (F := Ideal) S_ .f32 0x00000000#32) i = 0 := by
  rw [broadcastInDim_apply _ bcast_S_S11264x256 _ i ix0 (fun d => d.elim0), constant_apply]
  exact Ideal.ofBits_zero_f32

/-- The first layer's bias, made a row and repeated down the rows, read at `(a, j)` is the bias at `j`. -/
theorem bias1_apply (b : FVec Ideal S256 .f32) (a : Fin 11264) (j : Fin 256) :
    broadcastInDim S11264x256 ![0, 1] bcast_S1x256_S11264x256_0_1 (broadcastInDim S1x256 ![1] bcast_S256_S1x256_1 b) (ix2 a j)
      = b (ix1 j) := by
  rw [broadcastInDim_apply _ bcast_S1x256_S11264x256_0_1 _ (ix2 a j) (ix2 (0 : Fin 1) j) (fun d => match d with
    | ⟨0, _⟩ => by show 0 = if (1 : Nat) = 1 then 0 else a.val; rw [if_pos rfl]
    | ⟨1, _⟩ => by show j.val = if (256 : Nat) = 1 then 0 else j.val; rw [if_neg (by decide)])]
  exact broadcastInDim_apply _ bcast_S256_S1x256_1 b (ix2 (0 : Fin 1) j) (ix1 j) (fun d => match d with
    | ⟨0, _⟩ => by show j.val = if (256 : Nat) = 1 then 0 else j.val; rw [if_neg (by decide)])

/-- The second layer's bias, made a row and repeated down the rows, read at `(a, j)` is the bias at `j`. -/
theorem bias2_apply (b : FVec Ideal S47 .f32) (a : Fin 1024) (j : Fin 47) :
    broadcastInDim S1024x47 ![0, 1] bcast_S1x47_S1024x47_0_1 (broadcastInDim S1x47 ![1] bcast_S47_S1x47_1 b) (ix2 a j)
      = b (ix1 j) := by
  rw [broadcastInDim_apply _ bcast_S1x47_S1024x47_0_1 _ (ix2 a j) (ix2 (0 : Fin 1) j) (fun d => match d with
    | ⟨0, _⟩ => by show 0 = if (1 : Nat) = 1 then 0 else a.val; rw [if_pos rfl]
    | ⟨1, _⟩ => by show j.val = if (47 : Nat) = 1 then 0 else j.val; rw [if_neg (by decide)])]
  exact broadcastInDim_apply _ bcast_S47_S1x47_1 b (ix2 (0 : Fin 1) j) (ix1 j) (fun d => match d with
    | ⟨0, _⟩ => by show j.val = if (47 : Nat) = 1 then 0 else j.val; rw [if_neg (by decide)])

/-- The hidden layer as computed is the hidden layer of the specification. -/
theorem lin1_eq (hs hn : FVec Ideal S11264x256 .f32) (ws wn : FVec Ideal S256x256 .f32) (b : FVec Ideal S256 .f32) :
    lin1 (F := Ideal) hs hn ws wn b = Sage.hidden hs hn ws wn (Sage.row b) := by
  refine Sage.ext_ix2 fun a j => ?_
  rw [Sage.hidden_ix2]
  unfold lin1 Sage.entry
  rw [maximumf_apply, addf_apply, addf_apply, zeros1_apply, bias1_apply,
    Cert.LibDot.dotGeneral_apply _ rfl rfl rfl rfl rfl rfl, Cert.LibDot.dotGeneral_apply _ rfl rfl rfl rfl rfl rfl,
    Sage.row_ix2]

/-- The output layer as computed is the output layer of the specification. -/
theorem lin2_eq (hs hn : FVec Ideal S1024x256 .f32) (ws wn : FVec Ideal S256x47 .f32) (b : FVec Ideal S47 .f32) :
    lin2 (F := Ideal) hs hn ws wn b = Sage.output hs hn ws wn (Sage.row b) := by
  refine Sage.ext_ix2 fun a j => ?_
  rw [Sage.output_ix2]
  unfold lin2 Sage.entry
  rw [addf_apply, addf_apply, bias2_apply,
    Cert.LibDot.dotGeneral_apply _ rfl rfl rfl rfl rfl rfl, Cert.LibDot.dotGeneral_apply _ rfl rfl rfl rfl rfl rfl,
    Sage.row_ix2]

end Cert.ReferenceIdeal.Hand

end
-- ==== Proof.Bridge.lean ====
/-
  The two programs compute one function. Where every source row number addresses a row of its table, the kernel
  program's take (rows replaced by a fill value outside the table) is the plain gather of the wrapped row numbers,
  which is the reference's gather; the remaining host stages — summing into destination rows, dividing by the number
  of rows summed, cutting the leading rows — are the same operations in both programs; a bias vector reshaped to one
  row and the same vector broadcast to one row are the same row; and each layer of the reference is, entry by entry,
  the layer the kernel computes. So the kernel program's staged result is the reference's staged result.
-/
import proofs.«428940_j40097814676057_1_alg».proof.Proof.KStages
import proofs.«428940_j40097814676057_1_alg».proof.Proof.RefStages
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.Hand

/-! ## The host stages the two programs share

Each stage is one operation, or one short chain of operations, that both programs apply with the same literal
dimension numbers and shapes; the two spellings differ only in which program's constants name them. -/

/-- Cutting the leading 11264 rows of the feature table. -/
theorem top1_eq (x : FVec Ideal Cert.KernelIdeal.S292864x256 .f32) :
    Cert.KernelIdeal.Hand.top1 (F := Ideal) x = Cert.ReferenceIdeal.Hand.top1 (F := Ideal) x := by
  unfold Cert.KernelIdeal.Hand.top1 Cert.ReferenceIdeal.Hand.top1
  rfl

/-- Summing the gathered rows into their destination rows and dividing by the number of rows summed, first layer. -/
theorem mean1_eq (g : FVec Ideal Cert.KernelIdeal.S281600x256 .f32) (d : IVec Cert.KernelIdeal.S281600 32) :
    Cert.KernelIdeal.Hand.mean1 (F := Ideal) g d = Cert.ReferenceIdeal.Hand.mean1 (F := Ideal) g d := by
  unfold Cert.KernelIdeal.Hand.mean1 Cert.ReferenceIdeal.Hand.mean1
  rfl

/-- The column of wrapped row numbers of the first gather. -/
theorem starts1_eq (s : IVec Cert.KernelIdeal.S281600 32) :
    Cert.KernelIdeal.Hand.starts1 s = Cert.ReferenceIdeal.Hand.starts1 s := by
  unfold Cert.KernelIdeal.Hand.starts1 Cert.ReferenceIdeal.Hand.starts1
  rfl

/-- The plain gather of the wrapped rows, first layer. -/
theorem gather1_eq (x : FVec Ideal Cert.KernelIdeal.S292864x256 .f32) (s : IVec Cert.KernelIdeal.S281600 32) :
    Host.gather Cert.KernelIdeal.gather_S292864x256_S281600x1_S281600x256_1_0_n_n_0_1_1256 x (Cert.KernelIdeal.Hand.starts1 s)
      = Cert.ReferenceIdeal.Hand.gather1 (F := Ideal) x s := by
  rw [starts1_eq]
  unfold Cert.ReferenceIdeal.Hand.gather1
  rfl

/-- A vector of 256 entries reshaped to one row is the same row as the vector read along the row. -/
theorem brow1_eq (b : FVec Ideal Cert.KernelIdeal.S256 .f32) :
    Cert.KernelIdeal.Hand.brow1 (F := Ideal) b = Sage.row b := by
  refine Sage.ext_ix2 fun z j => ?_
  rw [Sage.row_ix2]
  unfold Cert.KernelIdeal.Hand.brow1
  exact shapeCast_a_1a_apply b _ z j

/-- Cutting the leading 1024 rows of the hidden features. -/
theorem top2_eq (h : FVec Ideal Cert.KernelIdeal.S11264x256 .f32) :
    Cert.KernelIdeal.Hand.top2 (F := Ideal) h = Cert.ReferenceIdeal.Hand.top2 (F := Ideal) h := by
  unfold Cert.KernelIdeal.Hand.top2 Cert.ReferenceIdeal.Hand.top2
  rfl

/-- Summing the gathered rows into their destination rows and dividing by the number of rows summed, second layer. -/
theorem mean2_eq (g : FVec Ideal Cert.KernelIdeal.S10240x256 .f32) (d : IVec Cert.KernelIdeal.S10240 32) :
    Cert.KernelIdeal.Hand.mean2 (F := Ideal) g d = Cert.ReferenceIdeal.Hand.mean2 (F := Ideal) g d := by
  unfold Cert.KernelIdeal.Hand.mean2 Cert.ReferenceIdeal.Hand.mean2
  rfl

/-- The column of wrapped row numbers of the second gather. -/
theorem starts2_eq (s : IVec Cert.KernelIdeal.S10240 32) :
    Cert.KernelIdeal.Hand.starts2 s = Cert.ReferenceIdeal.Hand.starts2 s := by
  unfold Cert.KernelIdeal.Hand.starts2 Cert.ReferenceIdeal.Hand.starts2
  rfl

/-- The plain gather of the wrapped rows, second layer. -/
theorem gather2_eq (h : FVec Ideal Cert.KernelIdeal.S11264x256 .f32) (s : IVec Cert.KernelIdeal.S10240 32) :
    Host.gather Cert.KernelIdeal.gather_S11264x256_S10240x1_S10240x256_1_0_n_n_0_1_1256 h (Cert.KernelIdeal.Hand.starts2 s)
      = Cert.ReferenceIdeal.Hand.gather2 (F := Ideal) h s := by
  rw [starts2_eq]
  unfold Cert.ReferenceIdeal.Hand.gather2
  rfl

/-- A vector of 47 entries reshaped to one row is the same row as the vector read along the row. -/
theorem brow2_eq (b : FVec Ideal Cert.KernelIdeal.S47 .f32) :
    Cert.KernelIdeal.Hand.brow2 (F := Ideal) b = Sage.row b := by
  refine Sage.ext_ix2 fun z j => ?_
  rw [Sage.row_ix2]
  unfold Cert.KernelIdeal.Hand.brow2
  exact shapeCast_a_1a_apply b _ z j

/-! ## The hidden features, then the result -/

/-- Under the range condition on the first array of source row numbers, the two programs' hidden features agree:
    the take is the plain gather, the other stages are shared, and the reference's layer is the specification's. -/
theorem hid_eq (x : FVec Ideal Cert.KernelIdeal.S292864x256 .f32) (s1 d1 : IVec Cert.KernelIdeal.S281600 32)
    (w5 w6 : FVec Ideal Cert.KernelIdeal.S256x256 .f32) (b1 : FVec Ideal Cert.KernelIdeal.S256 .f32)
    (h1 : ∀ e : Cert.KernelIdeal.S281600.Idx, -292864 ≤ (s1 e).toInt ∧ (s1 e).toInt < 292864) :
    Cert.KernelIdeal.Hand.hidK x s1 d1 w5 w6 b1 = Cert.ReferenceIdeal.Hand.hid (F := Ideal) x s1 d1 w5 w6 b1 := by
  unfold Cert.ReferenceIdeal.Hand.hid Cert.KernelIdeal.Hand.hidK
  rw [Cert.ReferenceIdeal.Hand.lin1_eq, Cert.KernelIdeal.Hand.take1_eq _ _ h1, gather1_eq, mean1_eq, top1_eq, brow1_eq]

/-- Under the range condition on the two arrays of source row numbers, the kernel program's staged result is the
    reference's staged result of the same arguments. -/
theorem bridge (x : FVec Ideal Cert.KernelIdeal.S292864x256 .f32) (s1 d1 : IVec Cert.KernelIdeal.S281600 32)
    (s2 d2 : IVec Cert.KernelIdeal.S10240 32) (w5 w6 : FVec Ideal Cert.KernelIdeal.S256x256 .f32)
    (b1 : FVec Ideal Cert.KernelIdeal.S256 .f32) (w8 w9 : FVec Ideal Cert.KernelIdeal.S256x47 .f32)
    (b2 : FVec Ideal Cert.KernelIdeal.S47 .f32)
    (h1 : ∀ e : Cert.KernelIdeal.S281600.Idx, -292864 ≤ (s1 e).toInt ∧ (s1 e).toInt < 292864)
    (h2 : ∀ e : Cert.KernelIdeal.S10240.Idx, -11264 ≤ (s2 e).toInt ∧ (s2 e).toInt < 11264) :
    Cert.KernelIdeal.Hand.resK x s1 d1 s2 d2 w5 w6 b1 w8 w9 b2
      = Cert.ReferenceIdeal.Hand.res (F := Ideal) x s1 d1 s2 d2 w5 w6 b1 w8 w9 b2 := by
  unfold Cert.ReferenceIdeal.Hand.res Cert.KernelIdeal.Hand.resK
  rw [hid_eq x s1 d1 w5 w6 b1 h1]
  generalize Cert.ReferenceIdeal.Hand.hid (F := Ideal) x s1 d1 w5 w6 b1 = H
  rw [Cert.ReferenceIdeal.Hand.lin2_eq, Cert.KernelIdeal.Hand.take2_eq _ _ h2, gather2_eq, mean2_eq, top2_eq, brow2_eq]

end Cert.Hand

end
-- ==== Proof.lean ====
/-
  Two layers of mean-aggregation graph convolution: the kernel program against the reference, over the extended reals.

  Each layer takes, for every edge, the source node's feature row, sums the rows arriving at each destination node and
  divides by their number (at least one), and returns  hs · Ws + hn · Wn + b  where hs are the destinations' own features
  (the leading rows of the input) and hn the neighbour means; the hidden layer clips the result at zero from below.
  The reference computes all of it with host operations. The kernel program computes the gather and the averaging
  with the same host operations and the dense part — the two matrix products, the bias, the clipping — in a tiled
  kernel per layer, the first over eleven blocks of 1024 rows, the second over one block.

  The two programs differ in one place: the kernel program replaces a gathered row by a fill value when its row number
  is outside the table, the reference clamps the row number into the table. Both first wrap a negative row number by
  adding the number of rows. The precondition therefore asks that every source row number lies between minus the
  number of rows and the number of rows: there the wrapped number addresses a row, the fill is never used and the
  clamp does nothing. Under it the gathered rows agree, the averaging is the same operation on both sides, and each
  layer of the reference is, entry by entry, the sum the kernel's blocks compute (a matrix product into a zero
  accumulator and a host contraction are the same finite sum; a bias reshaped to a row and a bias broadcast to a row
  are the same row). No law of the extended reals is used beyond reading each operation at an entry, so the
  finiteness of the floating-point inputs is not needed.

  The frames of the two kernel programs are the generated ones; the reference's frame is its generated run with the
  result dropped; the idealization rewrote no operation, so `preserves` is trivial.
-/
import proofs.«428940_j40097814676057_1_alg».proof.Defs
import proofs.«428940_j40097814676057_1_alg».proof.Proof.Gen.Kernel
import proofs.«428940_j40097814676057_1_alg».proof.Proof.Gen.Kernel.Skeleton
import proofs.«428940_j40097814676057_1_alg».proof.Proof.Gen.Kernel.Launch
import proofs.«428940_j40097814676057_1_alg».proof.Proof.Gen.Kernel.Points
import proofs.«428940_j40097814676057_1_alg».proof.Proof.Gen.Kernel.Frame
import proofs.«428940_j40097814676057_1_alg».proof.Proof.Gen.KernelIdeal
import proofs.«428940_j40097814676057_1_alg».proof.Proof.Gen.KernelIdeal.Skeleton
import proofs.«428940_j40097814676057_1_alg».proof.Proof.Gen.KernelIdeal.Launch
import proofs.«428940_j40097814676057_1_alg».proof.Proof.Gen.KernelIdeal.Points
import proofs.«428940_j40097814676057_1_alg».proof.Proof.Gen.KernelIdeal.Frame
import proofs.«428940_j40097814676057_1_alg».proof.Proof.Gen.ReferenceIdeal
import proofs.«428940_j40097814676057_1_alg».proof.Proof.Gen.ReferenceIdeal.Run
import proofs.«428940_j40097814676057_1_alg».proof.Proof.Gen.Pre_finite_inputs
import proofs.«428940_j40097814676057_1_alg».proof.Proof.PreRange
import proofs.«428940_j40097814676057_1_alg».proof.Proof.KernelRun
import proofs.«428940_j40097814676057_1_alg».proof.Proof.KernelValue
import proofs.«428940_j40097814676057_1_alg».proof.Proof.RefStages
import proofs.«428940_j40097814676057_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the statement about the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the staged result of the kernel program's arguments: the kernel program by its run read
    back through its two kernels, the reference by its run, its stages, and the agreement of the two staged results
    where the source row numbers are in range. -/
theorem algebraic : Cert.algebraic_KernelIdeal_ReferenceIdeal := by
  intro m ρ m' ρ' hpre hagree
  refine ⟨fun c => Cert.KernelIdeal.Hand.resK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Hand.out_eq m ρ c), (h c).2⟩) (Cert.KernelIdeal.Hand.run_out m ρ)
  · refine (θ_run Cert.ReferenceIdeal.defs _ _).mono (fun _ h c => ⟨(h c).1.trans ?_, (h c).2⟩)
      (Cert.ReferenceIdeal.Value.run (F := Ideal) m' ρ')
    obtain ⟨h1, h2⟩ := Cert.Pre_finite_inputs.Hand.src_ranges _ _ _ _ _ _ _ _ _ _ _ (hpre c)
    obtain ⟨e0, e1, e2, e3, e4, e5, e6, e7, e8, e9, e10⟩ := hagree c
    refine (Cert.ReferenceIdeal.Hand.res_eq m' c).trans ?_
    rw [e0, e1, e2, e3, e4, e5, e6, e7, e8, e9, e10]
    exact (Cert.Hand.bridge _ _ _ _ _ _ _ _ _ _ _ h1 h2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
